-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S256x2 .f32) (main_v50 : FVec F S256x2 .f32) : IVec S_ 1 :=
  let main_v51 : IVec S256x2 1 := cmpf .olt main_v49 main_v50
  let main_c_19 : IVec S_ 1 := constantI S_ 1 1#1
  let main_v52 : IVec S_ 1 := (fun x v => Host.reduce IntOp.andi x v reducesTo_S256x2_S_d0_1 h_S_) main_v51 main_c_19
  let main_v53 : IVec S_ 1 := andi main_v48 main_v52
  main_v53

def fn_part2 {F : FTy → Type} [FloatOps F] (main_arg8 : FVec F S256 .f32) (main_arg9 : FVec F S256x2 .f32) (main_arg10 : FVec F S2 .f32) (main_arg11 : FVec F S256x2 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x2 .f32 := Host.absf main_arg9
  let main_cst_14 : FVec F S_ .f32 := constant S_ .f32 0x7F800000#32
  let main_v40 : FVec F S256x2 .f32 := broadcastInDim S256x2 ![] bcast_S_S256x2 main_cst_14
  let main_v41 : IVec S256x2 1 := cmpf .olt main_v39 main_v40
  let main_c_15 : IVec S_ 1 := constantI S_ 1 1#1
  let main_v42 : IVec S_ 1 := (fun x v => Host.reduce IntOp.andi x v reducesTo_S256x2_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S256x2 .f32 := Host.absf main_arg11
  let main_cst_18 : FVec F S_ .f32 := constant S_ .f32 0x7F800000#32
  let main_v50 : FVec F S256x2 .f32 := broadcastInDim S256x2 ![] bcast_S_S256x2 main_cst_18
  fn_part3 (F := F) main_v48 main_v49 main_v50

def fn_part1 {F : FTy → Type} [FloatOps F] (main_arg5 : FVec F S128x256 .f32) (main_arg6 : FVec F S256 .f32) (main_arg7 : FVec F S256 .f32) (main_arg8 : FVec F S256 .f32) (main_arg9 : FVec F S256x2 .f32) (main_arg10 : FVec F S2 .f32) (main_arg11 : FVec F S256x2 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S128x256 .f32) (main_arg6 : FVec F S256 .f32) (main_arg7 : FVec F S256 .f32) (main_arg8 : FVec F S256 .f32) (main_arg9 : FVec F S256x2 .f32) (main_arg10 : FVec F S2 .f32) (main_arg11 : FVec F S256x2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S2000 : Shape := ⟨1, ![2000]⟩
abbrev S2000x1 : Shape := ⟨2, ![2000, 1]⟩
abbrev S800000x256 : Shape := ⟨2, ![800000, 256]⟩
abbrev S50000x2 : Shape := ⟨2, ![50000, 2]⟩
abbrev S2000x2 : Shape := ⟨2, ![2000, 2]⟩
abbrev S1x2 : Shape := ⟨2, ![1, 2]⟩

abbrev nBuf : Space → Nat
  | .hbm => 62
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S128x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x2, .f32⟩
  | .hbm, ⟨10, _⟩ => ⟨S2, .f32⟩
  | .hbm, ⟨11, _⟩ => ⟨S256x2, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x256, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S50000x1, .f32⟩
  | .hbm, ⟨59, _⟩ => ⟨S50000x256, .f32⟩
  | .hbm, ⟨60, _⟩ => ⟨S50000x256, .f32⟩
  | .hbm, ⟨61, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S256, .f32⟩
  | .local _ .vmem, ⟨6, _⟩ => ⟨S128x256, .f32⟩
  | .local _ .vmem, ⟨7, _⟩ => ⟨S128x256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x2, .f32⟩
  | .local _ .vmem, ⟨18, _⟩ => ⟨S2, .f32⟩
  | .local _ .vmem, ⟨19, _⟩ => ⟨S256x2, .f32⟩
  | .local _ .vmem, ⟨20, _⟩ => ⟨S2000x2, .f32⟩
  | .local _ .vmem, ⟨21, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x2_S256x2_0_0 : ∀ a, (![0, 0] : Fin 2 → Nat) a + S256x2.size a ≤ S256x2.size a
  h_S256x2 : 0 < S256x2.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x2_S2000x2_1_0_0_1_n_n_wf : DotDims.WF S2000x256 S256x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S50000x256.size a
  hwx0_9 : ∀ i : grid0.Coords, EltTy.bits .f32 = 32 ∨ (Rect.block (s := S50000x256) S2000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x2.size a ≤ S256x2.size a
  hwx1_2 : ∀ i : grid1.Coords, EltTy.bits .f32 = 32 ∨ (Rect.block (s := S256x2) S256x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2.size a ≤ S2.size a
  hwx1_3 : ∀ i : grid1.Coords, EltTy.bits .f32 = 32 ∨ (Rect.block (s := S2) S2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x2.size a ≤ S256x2.size a
  hwx1_4 : ∀ i : grid1.Coords, EltTy.bits .f32 = 32 ∨ (Rect.block (s := S256x2) S256x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x2.size a ≤ S50000x2.size a
  hwx1_5 : ∀ i : grid1.Coords, EltTy.bits .f32 = 32 ∨ (Rect.block (s := S50000x2) S2000x2.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v25) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S256x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x2 : Shape := ⟨2, ![50000, 2]⟩
abbrev S1x2 : Shape := ⟨2, ![1, 2]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S128x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x2, .f32⟩
  | .hbm, ⟨10, _⟩ => ⟨S2, .f32⟩
  | .hbm, ⟨11, _⟩ => ⟨S256x2, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S50000x256, .f32⟩
  | .hbm, ⟨52, _⟩ => ⟨S_, .f32⟩
  | .hbm, ⟨53, _⟩ => ⟨S50000, .f32⟩
  | .hbm, ⟨54, _⟩ => ⟨S50000x1, .f32⟩
  | .hbm, ⟨55, _⟩ => ⟨S_, .f32⟩
  | .hbm, ⟨56, _⟩ => ⟨S50000x1, .f32⟩
  | .hbm, ⟨57, _⟩ => ⟨S50000x1, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S_, .f32⟩
  | .hbm, ⟨62, _⟩ => ⟨S50000, .f32⟩
  | .hbm, ⟨63, _⟩ => ⟨S50000x1, .f32⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x1, .f32⟩
  | .hbm, ⟨71, _⟩ => ⟨S50000x1, .f32⟩
  | .hbm, ⟨72, _⟩ => ⟨S50000x1, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S1x256, .f32⟩
  | .hbm, ⟨79, _⟩ => ⟨S50000x256, .f32⟩
  | .hbm, ⟨80, _⟩ => ⟨S50000x256, .f32⟩
  | .hbm, ⟨81, _⟩ => ⟨S_, .f32⟩
  | .hbm, ⟨82, _⟩ => ⟨S50000x256, .f32⟩
  | .hbm, ⟨83, _⟩ => ⟨S50000x256, .i1⟩
  | .hbm, ⟨84, _⟩ => ⟨S_, .f32⟩
  | .hbm, ⟨85, _⟩ => ⟨S50000x256, .f32⟩
  | .hbm, ⟨86, _⟩ => ⟨S50000x256, .i1⟩
  | .hbm, ⟨87, _⟩ => ⟨S_, .f32⟩
  | .hbm, ⟨88, _⟩ => ⟨S_, .f32⟩
  | .hbm, ⟨89, _⟩ => ⟨S50000x256, .f32⟩
  | .hbm, ⟨90, _⟩ => ⟨S50000x256, .f32⟩
  | .hbm, ⟨91, _⟩ => ⟨S50000x256, .f32⟩
  | .hbm, ⟨92, _⟩ => ⟨S_, .f32⟩
  | .hbm, ⟨93, _⟩ => ⟨S50000x256, .f32⟩
  | .hbm, ⟨94, _⟩ => ⟨S50000x256, .f32⟩
  | .hbm, ⟨95, _⟩ => ⟨S50000x256, .f32⟩
  | .hbm, ⟨96, _⟩ => ⟨S_, .i32⟩
  | .hbm, ⟨97, _⟩ => ⟨S800000, .i32⟩
  | .hbm, ⟨98, _⟩ => ⟨S800000, .i1⟩
  | .hbm, ⟨99, _⟩ => ⟨S_, .i32⟩
  | .hbm, ⟨100, _⟩ => ⟨S800000, .i32⟩
  | .hbm, ⟨101, _⟩ => ⟨S800000, .i32⟩
  | .hbm, ⟨102, _⟩ => ⟨S800000, .i32⟩
  | .hbm, ⟨103, _⟩ => ⟨S800000x1, .i32⟩
  | .hbm, ⟨104, _⟩ => ⟨S800000x256, .f32⟩
  | .hbm, ⟨105, _⟩ => ⟨S_, .f32⟩
  | .hbm, ⟨106, _⟩ => ⟨S50000x256, .f32⟩
  | .hbm, ⟨107, _⟩ => ⟨S800000x1, .i32⟩
  | .hbm, ⟨108, _⟩ => ⟨S50000x256, .f32⟩
  | .hbm, ⟨109, _⟩ => ⟨S_, .f32⟩
  | .hbm, ⟨110, _⟩ => ⟨S800000, .f32⟩
  | .hbm, ⟨111, _⟩ => ⟨S_, .f32⟩
  | .hbm, ⟨112, _⟩ => ⟨S50000, .f32⟩
  | .hbm, ⟨113, _⟩ => ⟨S800000x1, .i32⟩
  | .hbm, ⟨114, _⟩ => ⟨S50000, .f32⟩
  | .hbm, ⟨115, _⟩ => ⟨S_, .f32⟩
  | .hbm, ⟨116, _⟩ => ⟨S50000, .f32⟩
  | .hbm, ⟨117, _⟩ => ⟨S50000, .f32⟩
  | .hbm, ⟨118, _⟩ => ⟨S50000x1, .f32⟩
  | .hbm, ⟨119, _⟩ => ⟨S50000x256, .f32⟩
  | .hbm, ⟨120, _⟩ => ⟨S50000x256, .f32⟩
  | .hbm, ⟨121, _⟩ => ⟨S50000x2, .f32⟩
  | .hbm, ⟨122, _⟩ => ⟨S1x2, .f32⟩
  | .hbm, ⟨123, _⟩ => ⟨S50000x2, .f32⟩
  | .hbm, ⟨124, _⟩ => ⟨S50000x2, .f32⟩
  | .hbm, ⟨125, _⟩ => ⟨S50000x2, .f32⟩
  | .hbm, ⟨126, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_cst_0 : Ref sig .tc := ⟨.hbm, 84, rfl⟩
abbrev main_call0_v2 : Ref sig .tc := ⟨.hbm, 85, rfl⟩
abbrev main_call0_v3 : Ref sig .tc := ⟨.hbm, 86, rfl⟩
abbrev main_call0_cst_1 : Ref sig .tc := ⟨.hbm, 87, rfl⟩
abbrev main_call0_call0_v0 : Ref sig .tc := ⟨.hbm, 88, rfl⟩
abbrev main_call0_call0_v1 : Ref sig .tc := ⟨.hbm, 89, rfl⟩
abbrev main_call0_v4 : Ref sig .tc := ⟨.hbm, 90, rfl⟩
abbrev main_call0_v5 : Ref sig .tc := ⟨.hbm, 91, rfl⟩
abbrev main_call0_cst_2 : Ref sig .tc := ⟨.hbm, 92, rfl⟩
abbrev main_call0_v6 : Ref sig .tc := ⟨.hbm, 93, rfl⟩
abbrev main_call0_v7 : Ref sig .tc := ⟨.hbm, 94, rfl⟩
abbrev main_v58 : Ref sig .tc := ⟨.hbm, 95, rfl⟩
abbrev main_c_9 : Ref sig .tc := ⟨.hbm, 96, rfl⟩
abbrev main_v59 : Ref sig .tc := ⟨.hbm, 97, rfl⟩
abbrev main_v60 : Ref sig .tc := ⟨.hbm, 98, rfl⟩
abbrev main_c_10 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_11 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_12 : Ref sig .tc := ⟨.hbm, 109, rfl⟩
abbrev main_v69 : Ref sig .tc := ⟨.hbm, 110, rfl⟩
abbrev main_cst_13 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_14 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x2_S50000x2_1_0_0_1_n_n_wf : DotDims.WF S50000x256 S256x2 S50000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.Spec.lean ====
/-
  The mathematics of the two layers, row by row, on the extended reals. One node (one row) of the first layer:
  three products of the row with weight matrices, two biases, a normalisation of the 256 sums to mean zero
  and unit variance (the variance shifted by a small constant before its inverse square root), a gain and a
  shift, and the exponential linear unit. One node of the second layer: two products and a bias.
  Nothing here depends on the programs: rows are functions on `Fin`.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The exponential linear unit: the identity above zero, `e^y - 1` at and below it. -/
def elu (y : EReal) : EReal := if 0 < y then y else Ideal.exp y - 1

/-- The sum of a row of 256 divided by the constant 256 (kept as its word). -/
def mean256 (p : Fin 256 → EReal) : EReal := Ideal.div (∑ j, p j) (Ideal.ofBits .f32 0x43800000#32)

/-- A row normalised: centred at its mean, scaled by the inverse square root of its shifted variance, then the gain
    and the shift, column by column. -/
def rowNorm (p g b : Fin 256 → EReal) (q : Fin 256) : EReal :=
  (p q - mean256 p) * Ideal.rsqrt (mean256 (fun j => (p j - mean256 p) * (p j - mean256 p)) + Ideal.ofBits .f32 0x3727C5AC#32) * g q + b q

/-- The first layer's sum before the normalisation, for one node: the aggregated row times `W1l` plus its bias, plus
    the node's own row times `W1r`, plus the node's row times `Wsk` plus its bias. -/
def pre1 (xr mr : Fin 128 → EReal) (W1l W1r Wsk : Fin 128 → Fin 256 → EReal) (b1l bsk : Fin 256 → EReal) (q : Fin 256) : EReal :=
  (((∑ k, mr k * W1l k q) + b1l q) + ∑ k, xr k * W1r k q) + ((∑ k, xr k * Wsk k q) + bsk q)

/-- The first layer, node `r`, column `q`. -/
def L1 (x mean : Fin 50000 → Fin 128 → EReal) (W1l W1r Wsk : Fin 128 → Fin 256 → EReal) (b1l bsk g b : Fin 256 → EReal)
    (r : Fin 50000) (q : Fin 256) : EReal :=
  elu (rowNorm (pre1 (x r) (mean r) W1l W1r Wsk b1l bsk) g b q)

/-- The second layer, node `r`, column `q`. -/
def L2 (x1 mean2 : Fin 50000 → Fin 256 → EReal) (W2l W2r : Fin 256 → Fin 2 → EReal) (b2l : Fin 2 → EReal)
    (r : Fin 50000) (q : Fin 2) : EReal :=
  ((∑ k, mean2 r k * W2l k q) + b2l q) + ∑ k, x1 r k * W2r k q

/-- The word of `1.0` denotes `1`. -/
theorem ofBits_one : Ideal.ofBits .f32 0x3F800000#32 = 1 := by
  simp [Ideal.ofBits, Ideal.ieee, -EReal.coe_mul]; norm_num

/-- Scaling by the reciprocal is the quotient, away from a zero divisor. -/
theorem mul_one_div (a c : EReal) (hc : c ≠ 0) : a * Ideal.div 1 c = Ideal.div a c := by
  unfold Ideal.div
  rw [if_neg hc, if_neg hc, one_mul]

/-- A maximum with one is not zero. -/
theorem max_one_ne_zero (c : EReal) : max c 1 ≠ 0 := by
  have h : (0 : EReal) < max c 1 := lt_of_lt_of_le zero_lt_one (le_max_right c 1)
  exact ne_of_gt h

end Cert.Spec

end
-- ==== Proof.Arrays.lean ====
/-
  The arrays the two programs compute, as functions of the argument arrays at the extended reals.
  `L1arr` and `L2arr` are the two layers (Spec.lean) read over whole arrays, index by index. The neighbour
  aggregation is carried as it is printed: the edge list's two rows, the first row's negative entries wrapped, a gather of
  the source rows, a scatter-add onto the destination rows, and the in-degree clamped below by one. The idealized kernel
  scales the aggregate by the reciprocal of the clamped degree (`meanK…`), the reference divides by it (`meanR…`).
-/
import proofs.«130005_j2680059593393_1_alg».proof.KernelIdeal
import proofs.«130005_j2680059593393_1_alg».proof.Proof.Gen.KernelIdeal
import proofs.«130005_j2680059593393_1_alg».proof.Proof.Spec
import Idealize.ShloMosaic.Lib.ValueIdx
import Idealize.ShloMosaic.Lib.Pipeline.Value

noncomputable section

namespace Cert.Arr

open Idealize.ShloMosaic Idealize.ShloMosaic.ValueIdx Cert.KernelIdeal Cert.KernelIdeal.Facts₀ Cert.KernelIdeal.Facts

/-- The first layer over whole arrays. -/
def L1arr (x mean : FVec Ideal S50000x128 .f32) (W1l : FVec Ideal S128x256 .f32) (b1l : FVec Ideal S256 .f32)
    (W1r Wsk : FVec Ideal S128x256 .f32) (bsk g b : FVec Ideal S256 .f32) : FVec Ideal S50000x256 .f32 :=
  fun i => Spec.L1 (fun r k => x (ix2 r k)) (fun r k => mean (ix2 r k)) (fun k q => W1l (ix2 k q)) (fun k q => W1r (ix2 k q))
    (fun k q => Wsk (ix2 k q)) (fun q => b1l (ix1 q)) (fun q => bsk (ix1 q)) (fun q => g (ix1 q)) (fun q => b (ix1 q)) (i 0) (i 1)

/-- The second layer over whole arrays. -/
def L2arr (x1 mean2 : FVec Ideal S50000x256 .f32) (W2l : FVec Ideal S256x2 .f32) (b2l : FVec Ideal S2 .f32)
    (W2r : FVec Ideal S256x2 .f32) : FVec Ideal S50000x2 .f32 :=
  fun i => Spec.L2 (fun r k => x1 (ix2 r k)) (fun r k => mean2 (ix2 r k)) (fun k q => W2l (ix2 k q)) (fun k q => W2r (ix2 k q))
    (fun q => b2l (ix1 q)) (i 0) (i 1)

theorem L1arr_apply (x mean W1l b1l W1r Wsk bsk g b) (r : Fin 50000) (q : Fin 256) :
    L1arr x mean W1l b1l W1r Wsk bsk g b (ix2 r q) = Spec.L1 (fun r k => x (ix2 r k)) (fun r k => mean (ix2 r k)) (fun k q => W1l (ix2 k q)) (fun k q => W1r (ix2 k q))
    (fun k q => Wsk (ix2 k q)) (fun q => b1l (ix1 q)) (fun q => bsk (ix1 q)) (fun q => g (ix1 q)) (fun q => b (ix1 q)) r q := rfl

theorem L2arr_apply (x1 mean2 W2l b2l W2r) (r : Fin 50000) (q : Fin 2) :
    L2arr x1 mean2 W2l b2l W2r (ix2 r q) = Spec.L2 (fun r k => x1 (ix2 r k)) (fun r k => mean2 (ix2 r k)) (fun k q => W2l (ix2 k q)) (fun k q => W2r (ix2 k q))
    (fun q => b2l (ix1 q)) r q := rfl

/-! ## The neighbour aggregation, as printed -/

/-- The edge list's first row: the source node of each edge. -/
def srcIdx (ei : IVec S2x800000 32) : IVec S800000 32 :=
  fun i => shapeCast S800000 (extractStridedSlice S1x800000 ![0, 0] ei slices_S2x800000_S1x800000_0_0) shapeCasts_S1x800000_S800000 i
/-- Its second row: the destination node of each edge. -/
def dstIdx (ei : IVec S2x800000 32) : IVec S800000 32 :=
  fun i => shapeCast S800000 (extractStridedSlice S1x800000 ![1, 0] ei slices_S2x800000_S1x800000_1_0) shapeCasts_S1x800000_S800000 i
/-- The source indices with a negative entry wrapped by the node count. -/
def srcWrapped (src : IVec S800000 32) : IVec S800000 32 :=
  select (cmpi .slt src (broadcastInDim S800000 ![] bcast_S_S800000 (constantI S_ 32 0#32)))
    (addi src (broadcastInDim S800000 ![] bcast_S_S800000 (constantI S_ 32 50000#32))) src
/-- The in-degree of every node, clamped below by one. -/
def degClamped (dst : IVec S800000 32) : FVec Ideal S50000 .f32 :=
  maximumf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32))
/-- Its reciprocal, as the kernel's host side computes it once. -/
def degRecip (dst : IVec S800000 32) : FVec Ideal S50000 .f32 :=
  Host.divf (broadcastInDim S50000 ![] bcast_S_S50000 (constant S_ .f32 0x3F800000#32)) (degClamped dst)
/-- The sum over each node's incoming edges of the source rows, 128 columns. -/
def agg128 (x : FVec Ideal S50000x128 .f32) (src dst : IVec S800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0 (srcWrapped src)))
/-- The same with 256 columns. -/
def agg256 (h : FVec Ideal S50000x256 .f32) (src dst : IVec S800000 32) : FVec Ideal S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst)
    (Host.gather gather_S50000x256_S800000x1_S800000x256_1_0_n_n_0_1_1256 h
      (broadcastInDim S800000x1 ![0] bcast_S800000_S800000x1_0 (srcWrapped src)))

/-- The neighbour mean as the kernel's host side forms it: the aggregate times a per-node factor `rc` (the reciprocal
    degree, computed once and read again for the second layer). -/
def meanK128 (x : FVec Ideal S50000x128 .f32) (src dst : IVec S800000 32) (rc : FVec Ideal S50000 .f32) : FVec Ideal S50000x128 .f32 :=
  mulf (agg128 x src dst) (broadcastInDim S50000x128 ![0, 1] bcast_S50000x1_S50000x128_0_1
    (broadcastInDim S50000x1 ![0] bcast_S50000_S50000x1_0 rc))
def meanK256 (h : FVec Ideal S50000x256 .f32) (src dst : IVec S800000 32) (rc : FVec Ideal S50000 .f32) : FVec Ideal S50000x256 .f32 :=
  mulf (agg256 h src dst) (broadcastInDim S50000x256 ![0, 1] bcast_S50000x1_S50000x256_0_1
    (broadcastInDim S50000x1 ![0] bcast_S50000_S50000x1_0 rc))
/-- The neighbour mean as the reference forms it: the aggregate divided by the clamped degree. -/
def meanR128 (x : FVec Ideal S50000x128 .f32) (src dst : IVec S800000 32) : FVec Ideal S50000x128 .f32 :=
  Host.divf (agg128 x src dst) (broadcastInDim S50000x128 ![0, 1] bcast_S50000x1_S50000x128_0_1
    (broadcastInDim S50000x1 ![0] bcast_S50000_S50000x1_0 (degClamped dst)))
def meanR256 (h : FVec Ideal S50000x256 .f32) (src dst : IVec S800000 32) : FVec Ideal S50000x256 .f32 :=
  Host.divf (agg256 h src dst) (broadcastInDim S50000x256 ![0, 1] bcast_S50000x1_S50000x256_0_1
    (broadcastInDim S50000x1 ![0] bcast_S50000_S50000x1_0 (degClamped dst)))

/-- The whole computation in the reference's form: the first layer over the node rows and their neighbour means, then
    the second layer over the first layer's rows and their neighbour means. -/
def out (x : FVec Ideal S50000x128 .f32) (ei : IVec S2x800000 32) (W1l : FVec Ideal S128x256 .f32) (b1l : FVec Ideal S256 .f32)
    (W1r Wsk : FVec Ideal S128x256 .f32) (bsk g b : FVec Ideal S256 .f32) (W2l : FVec Ideal S256x2 .f32) (b2l : FVec Ideal S2 .f32)
    (W2r : FVec Ideal S256x2 .f32) : FVec Ideal S50000x2 .f32 :=
  L2arr (L1arr x (meanR128 x (srcIdx ei) (dstIdx ei)) W1l b1l W1r Wsk bsk g b)
    (meanR256 (L1arr x (meanR128 x (srcIdx ei) (dstIdx ei)) W1l b1l W1r Wsk bsk g b) (srcIdx ei) (dstIdx ei)) W2l b2l W2r

end Cert.Arr

end
-- ==== Proof.MeanEq.lean ====
/-
  Scaling the neighbour aggregate by the reciprocal of the clamped in-degree is dividing it by the clamped in-degree:
  the clamped degree is a maximum with one, so it is never zero, and away from a zero divisor the quotient of the
  extended reals is the product with the inverse.
-/
import proofs.«130005_j2680059593393_1_alg».proof.Proof.Arrays

noncomputable section

namespace Cert.Arr

open Idealize.ShloMosaic Idealize.ShloMosaic.ValueIdx Cert.KernelIdeal Cert.KernelIdeal.Facts₀ Cert.KernelIdeal.Facts

/-- The host's quotient of two arrays at an index is the quotient of the extended reals. -/
theorem hostDivf_apply {s : Shape} {φ : FTy} (a b : FVec Ideal s φ) (i : s.Idx) :
    Host.divf a b i = Ideal.div (a i) (b i) := rfl

/-- A scalar broadcast to the node axis reads the scalar at every node. -/
theorem bcastScalar_apply (c : FVec Ideal S_ .f32) (r : Fin 50000) :
    broadcastInDim S50000 ![] bcast_S_S50000 c (ix1 r) = c ix0 :=
  broadcastInDim_apply _ _ c (ix1 r) ix0 (fun a => a.elim0)

/-- A per-node value broadcast along 128 columns reads the node's value at every column. -/
theorem bcastRow128_apply (v : FVec Ideal S50000 .f32) (r : Fin 50000) (q : Fin 128) :
    broadcastInDim S50000x128 ![0, 1] bcast_S50000x1_S50000x128_0_1
      (broadcastInDim S50000x1 ![0] bcast_S50000_S50000x1_0 v) (ix2 r q) = v (ix1 r) := by
  refine (broadcastInDim_apply _ _ _ (ix2 r q) (ix2 r 0) ?_).trans ?_
  · intro a
    match a with
    | ⟨0, _⟩ => rfl
    | ⟨1, _⟩ => rfl
  · refine broadcastInDim_apply _ _ v (ix2 r 0) (ix1 r) ?_
    intro a
    match a with
    | ⟨0, _⟩ => rfl

/-- The same along 256 columns. -/
theorem bcastRow256_apply (v : FVec Ideal S50000 .f32) (r : Fin 50000) (q : Fin 256) :
    broadcastInDim S50000x256 ![0, 1] bcast_S50000x1_S50000x256_0_1
      (broadcastInDim S50000x1 ![0] bcast_S50000_S50000x1_0 v) (ix2 r q) = v (ix1 r) := by
  refine (broadcastInDim_apply _ _ _ (ix2 r q) (ix2 r 0) ?_).trans ?_
  · intro a
    match a with
    | ⟨0, _⟩ => rfl
    | ⟨1, _⟩ => rfl
  · refine broadcastInDim_apply _ _ v (ix2 r 0) (ix1 r) ?_
    intro a
    match a with
    | ⟨0, _⟩ => rfl

/-- At a node the clamped degree is a maximum with one. -/
theorem degClamped_apply (dst : IVec S800000 32) (r : Fin 50000) :
    ∃ c : EReal, degClamped dst (ix1 r) = max c 1 := by
  unfold degClamped
  refine ⟨?_, ?_⟩
  swap
  · rw [maximumf_apply, bcastScalar_apply, constant_apply, Spec.ofBits_one]

/-- At a node the reciprocal degree is one divided by the clamped degree. -/
theorem degRecip_apply (dst : IVec S800000 32) (r : Fin 50000) :
    degRecip dst (ix1 r) = Ideal.div 1 (degClamped dst (ix1 r)) := by
  unfold degRecip
  rw [hostDivf_apply, bcastScalar_apply, constant_apply, Spec.ofBits_one]

/-- The two forms of the neighbour mean agree: the clamped degree is at least one, so it is not zero, and scaling by its
    reciprocal is dividing by it. -/
theorem meanK128_eq (x : FVec Ideal S50000x128 .f32) (src dst : IVec S800000 32) :
    meanK128 x src dst (degRecip dst) = meanR128 x src dst := by
  funext i
  obtain ⟨r, q, rfl⟩ : ∃ (r : Fin 50000) (q : Fin 128), i = ix2 r q := ⟨i 0, i 1, eq_ix2 i⟩
  unfold meanK128 meanR128
  rw [mulf_apply, hostDivf_apply, bcastRow128_apply, bcastRow128_apply, degRecip_apply]
  obtain ⟨c, hc⟩ := degClamped_apply dst r
  rw [hc]
  exact Spec.mul_one_div _ _ (Spec.max_one_ne_zero c)
theorem meanK256_eq (h : FVec Ideal S50000x256 .f32) (src dst : IVec S800000 32) :
    meanK256 h src dst (degRecip dst) = meanR256 h src dst := by
  funext i
  obtain ⟨r, q, rfl⟩ : ∃ (r : Fin 50000) (q : Fin 256), i = ix2 r q := ⟨i 0, i 1, eq_ix2 i⟩
  unfold meanK256 meanR256
  rw [mulf_apply, hostDivf_apply, bcastRow256_apply, bcastRow256_apply, degRecip_apply]
  obtain ⟨c, hc⟩ := degClamped_apply dst r
  rw [hc]
  exact Spec.mul_one_div _ _ (Spec.max_one_ne_zero c)

end Cert.Arr

end
-- ==== Proof.Region0Blocks.lean ====
/-
  Region 0, from blocks to the array. The region walks the 50000 nodes in 25 blocks of 2000 rows. Given what the body
  leaves at one row and column of a block as a function of the rows of its input blocks, the array the region leaves is
  the first layer (Spec.lean) of the whole arrays: row `p` of block `t` is row `2000 t + p` of the arrays, the weight
  and bias blocks are the whole weight and bias arrays, and the 25 blocks tile the 50000 rows.
-/
import proofs.«130005_j2680059593393_1_alg».proof.Proof.Gen.KernelIdeal.Frame
import proofs.«130005_j2680059593393_1_alg».proof.Proof.Arrays
import Idealize.ShloMosaic.Lib.ValueIdx
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open scoped BigOperators

/-! ## The index maps over the 25 points -/

/-- The printed index maps, decided over the grid: the two row-block inputs and the output sit at block `(t, 0)`, the
    weights and the biases at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 1) = 0
    ∧ win0_8.index t (0 : Fin 1) = 0
    ∧ win0_9.index t (0 : Fin 2) = t.val ∧ win0_9.index t (1 : Fin 2) = 0 :=
  (by decide +kernel : ∀ t : Fin grid0.N, _)

section Blocks

variable (V : (c : Dev nD) → (b : Ref sig .tc) → Buf (Elt Ideal) ((c : Thread nD τ).loc b))

/-! ## The blocks at a point, at their literal types -/

/-- The block of 2000 node rows at point `t`. -/
abbrev rows0 (c : Dev nD) (t : Fin cfg0.N) : Vec Ideal S2000x128 .f32 := iblk0 V c 0 t
/-- The block of 2000 neighbour-mean rows at point `t`. -/
abbrev rows1 (c : Dev nD) (t : Fin cfg0.N) : Vec Ideal S2000x128 .f32 := iblk0 V c 1 t
/-- The three weight blocks and the four bias, gain and shift blocks at point `t`. -/
abbrev mat2 (c : Dev nD) (t : Fin cfg0.N) : Vec Ideal S128x256 .f32 := iblk0 V c 2 t
abbrev vec3 (c : Dev nD) (t : Fin cfg0.N) : Vec Ideal S256 .f32 := iblk0 V c 3 t
abbrev mat4 (c : Dev nD) (t : Fin cfg0.N) : Vec Ideal S128x256 .f32 := iblk0 V c 4 t
abbrev mat5 (c : Dev nD) (t : Fin cfg0.N) : Vec Ideal S128x256 .f32 := iblk0 V c 5 t
abbrev vec6 (c : Dev nD) (t : Fin cfg0.N) : Vec Ideal S256 .f32 := iblk0 V c 6 t
abbrev vec7 (c : Dev nD) (t : Fin cfg0.N) : Vec Ideal S256 .f32 := iblk0 V c 7 t
abbrev vec8 (c : Dev nD) (t : Fin cfg0.N) : Vec Ideal S256 .f32 := iblk0 V c 8 t

/-! ## Each block read in its array: row `p` of block `t` is row `2000 t + p`; the weights and biases are whole -/

theorem rows0_apply (c : Dev nD) (t : Fin cfg0.N) (p : Fin 2000) (k : Fin 128) (r : Fin 50000)
    (hr : r.val = 2000 * t.val + p.val) : rows0 V c t (ix2 p k) = V c main_arg0 (ix2 r k) := by
  obtain ⟨e00, e01, e10, e11, -, -, -, -, -, -, -, -, -, -, -, -⟩ := idx_facts t
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 2000 + 1 * p.val = r.val; omega
  | ⟨1, _⟩ => show win0_0.index t (1 : Fin 2) * 128 + 1 * k.val = k.val; omega

theorem rows1_apply (c : Dev nD) (t : Fin cfg0.N) (p : Fin 2000) (k : Fin 128) (r : Fin 50000)
    (hr : r.val = 2000 * t.val + p.val) : rows1 V c t (ix2 p k) = V c main_v24 (ix2 r k) := by
  obtain ⟨e00, e01, e10, e11, -, -, -, -, -, -, -, -, -, -, -, -⟩ := idx_facts t
  show V c main_v24 (((cfg0.win 1).blk t).view.emb (ix2 p k)) = V c main_v24 (ix2 r k)
  refine congrArg (V c main_v24) ?_
  funext a; apply Fin.ext
  match a with
  | ⟨0, _⟩ => show win0_1.index t (0 : Fin 2) * 2000 + 1 * p.val = r.val; omega
  | ⟨1, _⟩ => show win0_1.index t (1 : Fin 2) * 128 + 1 * k.val = k.val; omega

theorem mat2_apply (c : Dev nD) (t : Fin cfg0.N) (k : Fin 128) (j : Fin 256) :
    mat2 V c t (ix2 k j) = V c main_arg2 (ix2 k j) := by
  obtain ⟨-, -, -, -, e20, e21, e3, e40, e41, e50, e51, e6, e7, e8, -, -⟩ := idx_facts t
  show V c main_arg2 (((cfg0.win 2).blk t).view.emb (ix2 k j)) = V c main_arg2 (ix2 k j)
  refine congrArg (V c main_arg2) ?_
  funext a; apply Fin.ext
  match a with
  | ⟨0, _⟩ => show win0_2.index t (0 : Fin 2) * 128 + 1 * k.val = k.val; omega
  | ⟨1, _⟩ => show win0_2.index t (1 : Fin 2) * 256 + 1 * j.val = j.val; omega

theorem vec3_apply (c : Dev nD) (t : Fin cfg0.N) (j : Fin 256) :
    vec3 V c t (ix1 j) = V c main_arg3 (ix1 j) := by
  obtain ⟨-, -, -, -, e20, e21, e3, e40, e41, e50, e51, e6, e7, e8, -, -⟩ := idx_facts t
  show V c main_arg3 (((cfg0.win 3).blk t).view.emb (ix1 j)) = V c main_arg3 (ix1 j)
  refine congrArg (V c main_arg3) ?_
  funext a; apply Fin.ext
  match a with
  | ⟨0, _⟩ => show win0_3.index t (0 : Fin 1) * 256 + 1 * j.val = j.val; omega

theorem mat4_apply (c : Dev nD) (t : Fin cfg0.N) (k : Fin 128) (j : Fin 256) :
    mat4 V c t (ix2 k j) = V c main_arg4 (ix2 k j) := by
  obtain ⟨-, -, -, -, e20, e21, e3, e40, e41, e50, e51, e6, e7, e8, -, -⟩ := idx_facts t
  show V c main_arg4 (((cfg0.win 4).blk t).view.emb (ix2 k j)) = V c main_arg4 (ix2 k j)
  refine congrArg (V c main_arg4) ?_
  funext a; apply Fin.ext
  match a with
  | ⟨0, _⟩ => show win0_4.index t (0 : Fin 2) * 128 + 1 * k.val = k.val; omega
  | ⟨1, _⟩ => show win0_4.index t (1 : Fin 2) * 256 + 1 * j.val = j.val; omega

theorem mat5_apply (c : Dev nD) (t : Fin cfg0.N) (k : Fin 128) (j : Fin 256) :
    mat5 V c t (ix2 k j) = V c main_arg5 (ix2 k j) := by
  obtain ⟨-, -, -, -, e20, e21, e3, e40, e41, e50, e51, e6, e7, e8, -, -⟩ := idx_facts t
  show V c main_arg5 (((cfg0.win 5).blk t).view.emb (ix2 k j)) = V c main_arg5 (ix2 k j)
  refine congrArg (V c main_arg5) ?_
  funext a; apply Fin.ext
  match a with
  | ⟨0, _⟩ => show win0_5.index t (0 : Fin 2) * 128 + 1 * k.val = k.val; omega
  | ⟨1, _⟩ => show win0_5.index t (1 : Fin 2) * 256 + 1 * j.val = j.val; omega

theorem vec6_apply (c : Dev nD) (t : Fin cfg0.N) (j : Fin 256) :
    vec6 V c t (ix1 j) = V c main_arg6 (ix1 j) := by
  obtain ⟨-, -, -, -, e20, e21, e3, e40, e41, e50, e51, e6, e7, e8, -, -⟩ := idx_facts t
  show V c main_arg6 (((cfg0.win 6).blk t).view.emb (ix1 j)) = V c main_arg6 (ix1 j)
  refine congrArg (V c main_arg6) ?_
  funext a; apply Fin.ext
  match a with
  | ⟨0, _⟩ => show win0_6.index t (0 : Fin 1) * 256 + 1 * j.val = j.val; omega

theorem vec7_apply (c : Dev nD) (t : Fin cfg0.N) (j : Fin 256) :
    vec7 V c t (ix1 j) = V c main_arg7 (ix1 j) := by
  obtain ⟨-, -, -, -, e20, e21, e3, e40, e41, e50, e51, e6, e7, e8, -, -⟩ := idx_facts t
  show V c main_arg7 (((cfg0.win 7).blk t).view.emb (ix1 j)) = V c main_arg7 (ix1 j)
  refine congrArg (V c main_arg7) ?_
  funext a; apply Fin.ext
  match a with
  | ⟨0, _⟩ => show win0_7.index t (0 : Fin 1) * 256 + 1 * j.val = j.val; omega

theorem vec8_apply (c : Dev nD) (t : Fin cfg0.N) (j : Fin 256) :
    vec8 V c t (ix1 j) = V c main_arg8 (ix1 j) := by
  obtain ⟨-, -, -, -, e20, e21, e3, e40, e41, e50, e51, e6, e7, e8, -, -⟩ := idx_facts t
  show V c main_arg8 (((cfg0.win 8).blk t).view.emb (ix1 j)) = V c main_arg8 (ix1 j)
  refine congrArg (V c main_arg8) ?_
  funext a; apply Fin.ext
  match a with
  | ⟨0, _⟩ => show win0_8.index t (0 : Fin 1) * 256 + 1 * j.val = j.val; omega

/-! ## What a point writes back -/

/-- Point `t` writes back block `t` of the first layer of the whole arrays. -/
theorem flushed_eq (c : Dev nD)
    (hpay : ∀ (x0 x1 : Vec Ideal S2000x128 .f32) (x2 : Vec Ideal S128x256 .f32) (x3 : Vec Ideal S256 .f32) (x4 x5 : Vec Ideal S128x256 .f32) (x6 x7 x8 : Vec Ideal S256 .f32) (p : Fin 2000) (q : Fin 256), out0_9 (F := Ideal) x0 x1 x2 x3 x4 x5 x6 x7 x8 (ix2 p q) = Cert.Spec.elu (Cert.Spec.rowNorm (Cert.Spec.pre1 (fun k => x0 (ix2 p k)) (fun k => x1 (ix2 p k)) (fun k j => x2 (ix2 k j)) (fun k j => x4 (ix2 k j)) (fun k j => x5 (ix2 k j)) (fun j => x3 (ix1 j)) (fun j => x6 (ix1 j))) (fun j => x7 (ix1 j)) (fun j => x8 (ix1 j)) q))
    (t : Fin cfg0.N) :
    (dat0 (F := Ideal) V c).flushed 9 t
      = ((cfg0.win 9).blk t).view.read (Elt Ideal) (Cert.Arr.L1arr (V c main_arg0) (V c main_v24) (V c main_arg2) (V c main_arg3) (V c main_arg4) (V c main_arg5) (V c main_arg6) (V c main_arg7) (V c main_arg8)) := by
  show (cfg0.win 9).cut (grid0.coords t) ((dat0 (F := Ideal) V c).after 9 t) = _
  rw [after0_9]
  funext j
  obtain ⟨p, q, rfl⟩ : ∃ (p : Fin 2000) (q : Fin 256), j = ix2 p q := ⟨j 0, j 1, eq_ix2 j⟩
  obtain ⟨-, -, -, -, -, -, -, -, -, -, -, -, -, -, e90, e91⟩ := idx_facts t
  have ht : t.val < 25 := t.isLt
  have hr : 2000 * t.val + p.val < 50000 := by have := p.isLt; omega
  show out0_9 (F := Ideal) (rows0 V c t) (rows1 V c t) (mat2 V c t) (vec3 V c t) (mat4 V c t) (mat5 V c t) (vec6 V c t) (vec7 V c t) (vec8 V c t) (ix2 p q)
    = Cert.Arr.L1arr (V c main_arg0) (V c main_v24) (V c main_arg2) (V c main_arg3) (V c main_arg4) (V c main_arg5) (V c main_arg6) (V c main_arg7) (V c main_arg8) (((cfg0.win 9).blk t).view.emb (ix2 p q))
  have hemb : ((cfg0.win 9).blk t).view.emb (ix2 p q) = ix2 (⟨2000 * t.val + p.val, hr⟩ : Fin 50000) q := by
    funext a; apply Fin.ext
    match a with
    | ⟨0, _⟩ => show win0_9.index t (0 : Fin 2) * 2000 + 1 * p.val = 2000 * t.val + p.val; omega
    | ⟨1, _⟩ => show win0_9.index t (1 : Fin 2) * 256 + 1 * q.val = q.val; omega
  rw [hemb, Cert.Arr.L1arr_apply]
  refine (hpay (rows0 V c t) (rows1 V c t) (mat2 V c t) (vec3 V c t) (mat4 V c t) (mat5 V c t) (vec6 V c t) (vec7 V c t) (vec8 V c t) p q).trans ?_
  have h0 : (fun k => rows0 V c t (ix2 p k)) = fun k => V c main_arg0 (ix2 (⟨2000 * t.val + p.val, hr⟩ : Fin 50000) k) :=
    funext fun k => rows0_apply V c t p k _ rfl
  have h1 : (fun k => rows1 V c t (ix2 p k)) = fun k => V c main_v24 (ix2 (⟨2000 * t.val + p.val, hr⟩ : Fin 50000) k) :=
    funext fun k => rows1_apply V c t p k _ rfl
  have h2 : (fun k j => mat2 V c t (ix2 k j)) = fun k j => V c main_arg2 (ix2 k j) :=
    funext fun k => funext fun j => mat2_apply V c t k j
  have h3 : (fun j => vec3 V c t (ix1 j)) = fun j => V c main_arg3 (ix1 j) := funext fun j => vec3_apply V c t j
  have h4 : (fun k j => mat4 V c t (ix2 k j)) = fun k j => V c main_arg4 (ix2 k j) :=
    funext fun k => funext fun j => mat4_apply V c t k j
  have h5 : (fun k j => mat5 V c t (ix2 k j)) = fun k j => V c main_arg5 (ix2 k j) :=
    funext fun k => funext fun j => mat5_apply V c t k j
  have h6 : (fun j => vec6 V c t (ix1 j)) = fun j => V c main_arg6 (ix1 j) := funext fun j => vec6_apply V c t j
  have h7 : (fun j => vec7 V c t (ix1 j)) = fun j => V c main_arg7 (ix1 j) := funext fun j => vec7_apply V c t j
  have h8 : (fun j => vec8 V c t (ix1 j)) = fun j => V c main_arg8 (ix1 j) := funext fun j => vec8_apply V c t j
  rw [h0, h1, h2, h3, h4, h5, h6, h7, h8]
  rfl

/-! ## The 25 blocks tile the 50000 rows -/

/-- An index of the array is in point `t`'s block iff each coordinate is in the block's range on its axis. -/
theorem mem_blk (t : Fin cfg0.N) (i : S50000x256.Idx) :
    i ∈ ((cfg0.win 9).blk t).view.set ↔ ∀ a : Fin 2, win0_9.index t a * S2000x256.size a ≤ (i a).val ∧ (i a).val < win0_9.index t a * S2000x256.size a + S2000x256.size a := by
  show i ∈ ((View.whole main_v25).slice (win0_9.rect t)).set ↔ _
  rw [View.set_slice_whole, Rect.mem_set_unit]
  exact Iff.rfl

/-- Every index of the array is in the block of the point that its row divided by 2000 names. -/
theorem covered (i : S50000x256.Idx) :
    ∃ t : Fin cfg0.N, (cfg0.win 9).flush t = true ∧ i ∈ ((cfg0.win 9).blk t).view.set := by
  have hi0 : (i 0).val < 50000 := (i 0).isLt
  have hi1 : (i 1).val < 256 := (i 1).isLt
  have h25 : (i 0).val / 2000 < 25 := by omega
  obtain ⟨t, ht⟩ : ∃ t : Fin cfg0.N, t.val = (i 0).val / 2000 := ⟨⟨(i 0).val / 2000, h25⟩, rfl⟩
  obtain ⟨-, -, -, -, -, -, -, -, -, -, -, -, -, -, e90, e91⟩ := idx_facts t
  refine ⟨t, flush0_9 t, ?_⟩
  rw [mem_blk]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 256 ≤ (i 1).val ∧ (i 1).val < win0_9.index t (1 : Fin 2) * 256 + 256; omega

end Blocks

/-! ## The array the region leaves -/

/-- Given the body's arithmetic at a row and column of a block, the array region 0 leaves is the first layer of the
    arrays its windows read. -/
theorem arr_of_payload (V : (c : Dev nD) → (b : Ref sig .tc) → Buf (Elt Ideal) ((c : Thread nD τ).loc b)) (c : Dev nD)
    (hpay : ∀ (x0 x1 : Vec Ideal S2000x128 .f32) (x2 : Vec Ideal S128x256 .f32) (x3 : Vec Ideal S256 .f32) (x4 x5 : Vec Ideal S128x256 .f32) (x6 x7 x8 : Vec Ideal S256 .f32) (p : Fin 2000) (q : Fin 256), out0_9 (F := Ideal) x0 x1 x2 x3 x4 x5 x6 x7 x8 (ix2 p q) = Cert.Spec.elu (Cert.Spec.rowNorm (Cert.Spec.pre1 (fun k => x0 (ix2 p k)) (fun k => x1 (ix2 p k)) (fun k j => x2 (ix2 k j)) (fun k j => x4 (ix2 k j)) (fun k j => x5 (ix2 k j)) (fun j => x3 (ix1 j)) (fun j => x6 (ix1 j))) (fun j => x7 (ix1 j)) (fun j => x8 (ix1 j)) q)) :
    (dat0 (F := Ideal) V c).arrAt 9 cfg0.N = Cert.Arr.L1arr (V c main_arg0) (V c main_v24) (V c main_arg2) (V c main_arg3) (V c main_arg4) (V c main_arg5) (V c main_arg6) (V c main_arg7) (V c main_arg8) :=
  (dat0 (F := Ideal) V c).arrAt_eq_of_cover 9 _ (fun t _ => flushed_eq V c hpay t) (fun i => covered i)

end Cert.KernelIdeal.Region0

end
-- ==== Proof.Region0.lean ====
/-
  The first kernel region's output array. The region walks the 50000 nodes in 25 blocks of 2000 rows; at each block
  the body computes, row by row, the first layer (Spec.lean) of that block's rows of the node array and of the
  neighbour-mean array. A row of a block is the row `2000 t + p` of the arrays, the blocks tile the rows, so the array the
  region leaves is the first layer of the whole arrays.
-/
import proofs.«130005_j2680059593393_1_alg».proof.Proof.Gen.KernelIdeal.Frame
import proofs.«130005_j2680059593393_1_alg».proof.Proof.Arrays
import proofs.«130005_j2680059593393_1_alg».proof.Proof.Region0Blocks
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open scoped BigOperators

/-! ## Layout operations of the body, read at an index -/

section Layout
variable {α : Type}

/-- A vector of 256 laid along each of the 2000 rows reads, at row p and column q, its entry q. -/
theorem rowBroadcast_apply (v : S256.Idx → α) (p : Fin 2000) (q : Fin 256) :
    broadcastTo S2000x256 (shapeCast S1x256 v shapeCasts_S256_S1x256) broadcasts_S1x256_S2000x256 (ix2 p q) = v (ix1 q) :=
  (broadcastTo_1b_ab_apply _ broadcasts_S1x256_S2000x256 p q).trans (shapeCast_a_1a_apply v shapeCasts_S256_S1x256 0 q)

/-- A vector of 2000 stood up as a column reads, at row p, its entry p. -/
theorem column_apply (v : S2000.Idx → α) (p : Fin 2000) (u : Fin 1) :
    shapeCast S2000x1 v shapeCasts_S2000_S2000x1 (ix2 p u) = v (ix1 p) :=
  shapeCast_apply v shapeCasts_S2000_S2000x1 _ _ (by
    have hu : u.val = 0 := by omega
    rw [Shape.rowMajor_val_two, Shape.rowMajor_val_one]
    show p.val = p.val * 1 + u.val
    rw [hu]; omega)

/-- A column of 2000 laid along the 256 columns reads, at row p and any column, its entry p. -/
theorem columnBroadcast_apply (v : S2000x1.Idx → α) (p : Fin 2000) (q : Fin 256) :
    broadcastTo S2000x256 v broadcasts_S2000x1_S2000x256 (ix2 p q) = v (ix2 p (0 : Fin 1)) := by
  refine broadcastTo_apply v broadcasts_S2000x1_S2000x256 (ix2 p q) (ix2 p (0 : Fin 1)) fun ax => ?_
  match ax with
  | ⟨0, _⟩ => rfl
  | ⟨1, _⟩ => rfl

end Layout

/-! ## The matrix product of a row block with a weight matrix, read at an index -/

/-- The product's left index at (row, column) and contraction position: its row is the output's row. -/
theorem lhs_dot_S2000x128_S128x256_S2000x256_1_0_0_1_n_n_0 (j : S2000x256.Idx)
    (k : dot_S2000x128_S128x256_S2000x256_1_0_0_1_n_n.contr.Idx) :
    (dot_S2000x128_S128x256_S2000x256_1_0_0_1_n_n.lhsIdx j k 0).val = (j 0).val := rfl
/-- Its column is the contraction position. -/
theorem lhs_dot_S2000x128_S128x256_S2000x256_1_0_0_1_n_n_1 (j : S2000x256.Idx)
    (k : dot_S2000x128_S128x256_S2000x256_1_0_0_1_n_n.contr.Idx) :
    (dot_S2000x128_S128x256_S2000x256_1_0_0_1_n_n.lhsIdx j k 1).val = (k ⟨0, by decide⟩).val :=
  dot_S2000x128_S128x256_S2000x256_1_0_0_1_n_n.lhsIdx_val_of_single rfl j k
/-- The right index's row is the contraction position. -/
theorem rhs_dot_S2000x128_S128x256_S2000x256_1_0_0_1_n_n_0 (j : S2000x256.Idx)
    (k : dot_S2000x128_S128x256_S2000x256_1_0_0_1_n_n.contr.Idx) :
    (dot_S2000x128_S128x256_S2000x256_1_0_0_1_n_n.rhsIdx j k 0).val = (k ⟨0, by decide⟩).val :=
  dot_S2000x128_S128x256_S2000x256_1_0_0_1_n_n.rhsIdx_val_of_single rfl j k
/-- Its column is the output's column. -/
theorem rhs_dot_S2000x128_S128x256_S2000x256_1_0_0_1_n_n_1 (j : S2000x256.Idx)
    (k : dot_S2000x128_S128x256_S2000x256_1_0_0_1_n_n.contr.Idx) :
    (dot_S2000x128_S128x256_S2000x256_1_0_0_1_n_n.rhsIdx j k 1).val = (j 1).val := rfl

/-- A row block times a weight matrix, accumulated into zero, at row p and column q: the sum over the 128 inner
    positions of the row's entry times the matrix's entry. -/
theorem matmul_apply_ix (a : FVec Ideal S2000x128 .bf16) (b : FVec Ideal S128x256 .bf16) (p : Fin 2000) (q : Fin 256) :
    matmul dot_S2000x128_S128x256_S2000x256_1_0_0_1_n_n none a b (constant (F := Ideal) S2000x256 .f32 0x00000000#32) (ix2 p q)
      = ∑ k : Fin 128, a (ix2 p k) * b (ix2 k q) := by
  refine (Ideal.matmul_constant_zero_apply dot_S2000x128_S128x256_S2000x256_1_0_0_1_n_n none a b (ix2 p q)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have hl : dot_S2000x128_S128x256_S2000x256_1_0_0_1_n_n.lhsIdx (ix2 p q)
      ((contrEquiv1 dot_S2000x128_S128x256_S2000x256_1_0_0_1_n_n 128 rfl rfl).symm k) = ix2 p k := by
    funext ax; apply Fin.ext
    match ax with
    | ⟨0, _⟩ => exact lhs_dot_S2000x128_S128x256_S2000x256_1_0_0_1_n_n_0 _ _
    | ⟨1, _⟩ => exact (lhs_dot_S2000x128_S128x256_S2000x256_1_0_0_1_n_n_1 _ _).trans hk
  have hr : dot_S2000x128_S128x256_S2000x256_1_0_0_1_n_n.rhsIdx (ix2 p q)
      ((contrEquiv1 dot_S2000x128_S128x256_S2000x256_1_0_0_1_n_n 128 rfl rfl).symm k) = ix2 k q := by
    funext ax; apply Fin.ext
    match ax with
    | ⟨0, _⟩ => exact (rhs_dot_S2000x128_S128x256_S2000x256_1_0_0_1_n_n_0 _ _).trans hk
    | ⟨1, _⟩ => exact rhs_dot_S2000x128_S128x256_S2000x256_1_0_0_1_n_n_1 _ _
  rw [hl, hr]

/-- The sum along a row of a 2000 by 256 block, at row p. -/
theorem rowSum_apply (src : FVec Ideal S2000x256 .f32) (hφ : FKind.Formats .f32)
    (hacc : (0x00000000#32 : BitVec 32) = 0x00000000#32) (p : Fin 2000) :
    multiReduction (F := Ideal) .add [1] S2000 src 0x00000000#32 reduces_S2000x256_S2000 hφ hacc (ix1 p)
      = ∑ k : Fin 256, src (ix2 p k) := by
  refine (Ideal.multiReduction_add_single src 0x00000000#32 reduces_S2000x256_S2000 hφ hacc (ix1 p)).trans ?_
  refine Finset.sum_congr rfl fun k _ => congrArg src ?_
  funext ax; apply Fin.ext
  match ax with
  | ⟨0, _⟩ => rfl
  | ⟨1, _⟩ => rfl

/-! ## The body's payloads, read at an index -/

/-- The 256 sums of a row before the normalisation: the three products, the two biases, in the body's order. -/
theorem pay2_apply (x0 x1 : Vec Ideal S2000x128 .f32) (W1l W1r Wsk : Vec Ideal S128x256 .f32) (b1l bsk : Vec Ideal S256 .f32)
    (p : Fin 2000) (q : Fin 256) :
    k0_pay2 (F := Ideal) x0 x1 W1l W1r Wsk b1l bsk (ix2 p q)
      = Cert.Spec.pre1 (fun k => x0 (ix2 p k)) (fun k => x1 (ix2 p k)) (fun k j => W1l (ix2 k j)) (fun k j => W1r (ix2 k j))
          (fun k j => Wsk (ix2 k j)) (fun j => b1l (ix1 j)) (fun j => bsk (ix1 j)) q := by
  unfold k0_pay2 Cert.Spec.pre1
  simp only [addf_apply, matmul_apply_ix, rowBroadcast_apply, shapeCast_self, truncf_apply]

/-- The mean along a row of a 2000 by 256 block, as the body spells it: the row's sum stood up as a column and divided
    by the constant 256. -/
theorem rowMean_apply (src : FVec Ideal S2000x256 .f32) (hφ : FKind.Formats .f32)
    (hacc : (0x00000000#32 : BitVec 32) = 0x00000000#32) (p : Fin 2000) (u : Fin 1) :
    divf (shapeCast S2000x1 (multiReduction (F := Ideal) .add [1] S2000 src 0x00000000#32 reduces_S2000x256_S2000 hφ hacc)
        shapeCasts_S2000_S2000x1) (broadcast S2000x1 (Scalar.ofBits (F := Ideal) .f32 0x43800000#32)) (ix2 p u)
      = Cert.Spec.mean256 (fun j => src (ix2 p j)) := by
  show Ideal.div (shapeCast S2000x1 (multiReduction (F := Ideal) .add [1] S2000 src 0x00000000#32 reduces_S2000x256_S2000 hφ hacc)
        shapeCasts_S2000_S2000x1 (ix2 p u)) (Ideal.ofBits .f32 0x43800000#32) = _
  rw [column_apply]
  exact congrArg (fun t => Ideal.div t (Ideal.ofBits .f32 0x43800000#32)) (rowSum_apply src hφ hacc p)

/-- The mean of a row's 256 sums, as a column entry. -/
theorem pay3_apply (x0 x1 : Vec Ideal S2000x128 .f32) (W1l W1r Wsk : Vec Ideal S128x256 .f32) (b1l bsk : Vec Ideal S256 .f32)
    (p : Fin 2000) (u : Fin 1) :
    k0_pay3 (F := Ideal) x0 x1 W1l W1r Wsk b1l bsk (ix2 p u)
      = Cert.Spec.mean256 (fun j => k0_pay2 (F := Ideal) x0 x1 W1l W1r Wsk b1l bsk (ix2 p j)) := by
  unfold k0_pay3
  exact rowMean_apply _ _ _ p u

/-- A row's sums centred at their mean. -/
theorem pay4_apply (x0 x1 : Vec Ideal S2000x128 .f32) (W1l W1r Wsk : Vec Ideal S128x256 .f32) (b1l bsk : Vec Ideal S256 .f32)
    (p : Fin 2000) (q : Fin 256) :
    k0_pay4 (F := Ideal) x0 x1 W1l W1r Wsk b1l bsk (ix2 p q)
      = k0_pay2 (F := Ideal) x0 x1 W1l W1r Wsk b1l bsk (ix2 p q)
        - k0_pay3 (F := Ideal) x0 x1 W1l W1r Wsk b1l bsk (ix2 p (0 : Fin 1)) := by
  unfold k0_pay4
  simp only [subf_apply, columnBroadcast_apply]

/-- The mean of a row's squared deviations, shifted by the small constant, as a column entry. -/
theorem pay5_apply (x0 x1 : Vec Ideal S2000x128 .f32) (W1l W1r Wsk : Vec Ideal S128x256 .f32) (b1l bsk : Vec Ideal S256 .f32)
    (p : Fin 2000) (u : Fin 1) :
    k0_pay5 (F := Ideal) x0 x1 W1l W1r Wsk b1l bsk (ix2 p u)
      = Cert.Spec.mean256 (fun j =>
          (k0_pay2 (F := Ideal) x0 x1 W1l W1r Wsk b1l bsk (ix2 p j) - k0_pay3 (F := Ideal) x0 x1 W1l W1r Wsk b1l bsk (ix2 p (0 : Fin 1)))
          * (k0_pay2 (F := Ideal) x0 x1 W1l W1r Wsk b1l bsk (ix2 p j) - k0_pay3 (F := Ideal) x0 x1 W1l W1r Wsk b1l bsk (ix2 p (0 : Fin 1))))
        + Ideal.ofBits .f32 0x3727C5AC#32 := by
  unfold k0_pay5
  refine (congrArg (fun t => t + Ideal.ofBits .f32 0x3727C5AC#32) (rowMean_apply _ _ _ p u)).trans ?_
  simp only [mulf_apply, subf_apply, columnBroadcast_apply]

section Pointwise
variable {s : Shape} {φ : FTy}
/-- An inverse square root at an index is the element's. -/
theorem rsqrt_apply (a : FVec Ideal s φ) (i : s.Idx) : rsqrt a i = Ideal.rsqrt (a i) := rfl
/-- An exponential at an index is the element's. -/
theorem exp_apply (a : FVec Ideal s φ) (i : s.Idx) : exp a i = Ideal.exp (a i) := rfl
end Pointwise

/-- The body's select on "above zero" between a value and its exponential less one is the exponential linear unit. -/
theorem select_elu (y : EReal) :
    Scalar.select (Ideal.cmp .ogt y (Ideal.ofBits .f32 0x00000000#32)) y (Ideal.exp y - Ideal.ofBits .f32 0x3F800000#32)
      = Cert.Spec.elu y := by
  rw [Ideal.ofBits_zero_f32, Cert.Spec.ofBits_one]
  unfold Ideal.cmp Cert.Spec.elu
  by_cases h : 0 < y
  · simp [h, Scalar.select]
  · simp [h, Scalar.select]

/-- The exponential linear unit of the scaled, shifted row entry. -/
theorem pay1_apply (d : FVec Ideal S2000x256 .f32) (v : FVec Ideal S2000x1 .f32) (g b : Vec Ideal S256 .f32)
    (p : Fin 2000) (q : Fin 256) :
    k0_pay1 (F := Ideal) d v g b (ix2 p q)
      = Cert.Spec.elu (d (ix2 p q) * Ideal.rsqrt (v (ix2 p (0 : Fin 1))) * g (ix1 q) + b (ix1 q)) := by
  unfold k0_pay1
  simp only [select_apply, cmpf_apply, subf_apply, addf_apply, mulf_apply, broadcast_apply, rowBroadcast_apply,
    columnBroadcast_apply, rsqrt_apply, exp_apply]
  exact select_elu _

/-! ## The block the body stores, read at an index -/

/-- The offsets of a whole rank-2 block are zero on each axis. -/
theorem zero_offsets2 : (![0, 0] : Fin 2 → Nat) = fun _ => 0 :=
  funext fun a => by match a with | ⟨0, _⟩ => rfl | ⟨1, _⟩ => rfl
/-- The offset of a whole rank-1 block is zero. -/
theorem zero_offsets1 : (![0] : Fin 1 → Nat) = fun _ => 0 :=
  funext fun a => by match a with | ⟨0, _⟩ => rfl

/-- What the body leaves in the output block, at row p and column q: the first layer of row p of the node block and of
    the neighbour-mean block. -/
theorem out0_9_apply (x0 x1 : Vec Ideal S2000x128 .f32) (x2 : Vec Ideal S128x256 .f32) (x3 : Vec Ideal S256 .f32)
    (x4 x5 : Vec Ideal S128x256 .f32) (x6 x7 x8 : Vec Ideal S256 .f32) (p : Fin 2000) (q : Fin 256) :
    out0_9 (F := Ideal) x0 x1 x2 x3 x4 x5 x6 x7 x8 (ix2 p q)
      = Cert.Spec.elu (Cert.Spec.rowNorm (Cert.Spec.pre1 (fun k => x0 (ix2 p k)) (fun k => x1 (ix2 p k)) (fun k j => x2 (ix2 k j))
          (fun k j => x4 (ix2 k j)) (fun k j => x5 (ix2 k j)) (fun j => x3 (ix1 j)) (fun j => x6 (ix1 j)))
          (fun j => x7 (ix1 j)) (fun j => x8 (ix1 j)) q) := by
  unfold out0_9
  rw [View.canon_unit_zero zero_offsets2]
  simp only [View.ld_unit_zero (S := S2000x128) zero_offsets2, View.ld_unit_zero (S := S128x256) zero_offsets2,
    View.ld_unit_zero (S := S256) zero_offsets1]
  rw [pay1_apply, pay4_apply, pay5_apply]
  simp only [pay3_apply, pay2_apply]
  unfold Cert.Spec.rowNorm
  rfl

/-! ## The array the region leaves -/

/-- What region 0 leaves in its output array, for any contents `V` the region is entered at: the first layer of the
    arrays its windows read. -/
theorem arr_out (V : (c : Dev nD) → (b : Ref sig .tc) → Buf (Elt Ideal) ((c : Thread nD τ).loc b)) (c : Dev nD) :
    (dat0 (F := Ideal) V c).arrAt 9 cfg0.N
      = Cert.Arr.L1arr (V c main_arg0) (V c main_v24) (V c main_arg2) (V c main_arg3) (V c main_arg4) (V c main_arg5)
          (V c main_arg6) (V c main_arg7) (V c main_arg8) :=
  arr_of_payload V c out0_9_apply

end Cert.KernelIdeal.Region0

end
-- ==== Proof.Region1.lean ====
/-
  The second kernel region's output array. The region walks the 50000 nodes in 25 blocks of 2000 rows; at each block
  the body computes, row by row, the second layer (Spec.lean) of that block's rows of the first layer's output and of its
  neighbour-mean array. The blocks tile the rows, so the array the region leaves is the second layer of the whole arrays.
-/
import proofs.«130005_j2680059593393_1_alg».proof.Proof.Gen.KernelIdeal.Frame
import proofs.«130005_j2680059593393_1_alg».proof.Proof.Arrays
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open scoped BigOperators

/-! ## The block product at an index -/

/-- The product's index maps, axis by axis: the left operand is read at (output row, shared coordinate), the right
    operand at (shared coordinate, output column). -/
theorem lhs_0 (j : S2000x2.Idx) (k : dot_S2000x256_S256x2_S2000x2_1_0_0_1_n_n.contr.Idx) :
    (dot_S2000x256_S256x2_S2000x2_1_0_0_1_n_n.lhsIdx j k 0 : ℕ) = j 0 := by
  simp [DotDims.lhsIdx, dot_S2000x256_S256x2_S2000x2_1_0_0_1_n_n]; rfl
theorem lhs_1 (j : S2000x2.Idx) (k : dot_S2000x256_S256x2_S2000x2_1_0_0_1_n_n.contr.Idx) :
    (dot_S2000x256_S256x2_S2000x2_1_0_0_1_n_n.lhsIdx j k 1 : ℕ) = k ⟨0, by decide⟩ := by
  simp [DotDims.lhsIdx, dot_S2000x256_S256x2_S2000x2_1_0_0_1_n_n]; rfl
theorem rhs_0 (j : S2000x2.Idx) (k : dot_S2000x256_S256x2_S2000x2_1_0_0_1_n_n.contr.Idx) :
    (dot_S2000x256_S256x2_S2000x2_1_0_0_1_n_n.rhsIdx j k 0 : ℕ) = k ⟨0, by decide⟩ := by
  simp [DotDims.rhsIdx, dot_S2000x256_S256x2_S2000x2_1_0_0_1_n_n]; rfl
theorem rhs_1 (j : S2000x2.Idx) (k : dot_S2000x256_S256x2_S2000x2_1_0_0_1_n_n.contr.Idx) :
    (dot_S2000x256_S256x2_S2000x2_1_0_0_1_n_n.rhsIdx j k 1 : ℕ) = j 1 := by
  simp [DotDims.rhsIdx, dot_S2000x256_S256x2_S2000x2_1_0_0_1_n_n]; rfl

/-- A 2000×256 block times a 256×2 block into the zero block, at row `p`, column `q`: the sum over the 256 shared
    coordinates of the products. -/
theorem product_at (X : FVec Ideal S2000x256 .bf16) (W : FVec Ideal S256x2 .bf16) (p : Fin 2000) (q : Fin 2) :
    matmul dot_S2000x256_S256x2_S2000x2_1_0_0_1_n_n none X W (constant (F := Ideal) S2000x2 .f32 0x00000000#32) (ix2 p q)
      = ∑ k : Fin 256, X (ix2 p k) * W (ix2 k q) := by
  simp only [matmul]
  rw [Ideal.matmul_constant_zero_apply, ← Equiv.sum_comp (contrEquiv1 dot_S2000x256_S256x2_S2000x2_1_0_0_1_n_n 256 rfl rfl).symm]
  refine Finset.sum_congr rfl fun k _ => ?_
  have hk := contrEquiv1_symm_val dot_S2000x256_S256x2_S2000x2_1_0_0_1_n_n 256 rfl rfl k
  congr 2
  · funext a; apply Fin.ext
    match a with
    | ⟨0, _⟩ => exact lhs_0 _ _
    | ⟨1, _⟩ => exact (lhs_1 _ _).trans hk
  · funext a; apply Fin.ext
    match a with
    | ⟨0, _⟩ => exact (rhs_0 _ _).trans hk
    | ⟨1, _⟩ => exact rhs_1 _ _

/-- The body's value at row `p`, column `q` of its block: the second layer's sum for that row. -/
theorem payload_at (x1 mean2 : Vec Ideal S2000x256 .f32) (W2l W2r : Vec Ideal S256x2 .f32) (b2l : Vec Ideal S2 .f32)
    (p : Fin 2000) (q : Fin 2) :
    k1_pay1 (F := Ideal) x1 mean2 W2l W2r b2l (ix2 p q)
      = ((∑ k : Fin 256, mean2 (ix2 p k) * W2l (ix2 k q)) + b2l (ix1 q)) + ∑ k : Fin 256, x1 (ix2 p k) * W2r (ix2 k q) := by
  unfold k1_pay1
  simp only [shapeCast_self]
  rw [addf_apply, addf_apply, product_at, product_at]
  simp only [truncf_apply]
  congr 2
  exact (broadcastTo_1b_ab_apply _ _ p q).trans (shapeCast_a_1a_apply _ _ 0 q)

/-! ## The windows' blocks as rows of their arrays -/

theorem hz : (![0, 0] : Fin 2 → Nat) = fun _ => 0 := funext fun a => by fin_cases a <;> rfl
theorem hz1 : (![0] : Fin 1 → Nat) = fun _ => 0 := funext fun a => by fin_cases a <;> rfl

/-- The block the body stores, at row `p`, column `q`, over any input blocks: the second layer's sum for that row. -/
theorem out1_5_apply (x0 x1 : Vec Ideal S2000x256 .f32) (x2 : Vec Ideal S256x2 .f32) (x3 : Vec Ideal S2 .f32)
    (x4 : Vec Ideal S256x2 .f32) (p : Fin 2000) (q : Fin 2) :
    out1_5 (F := Ideal) x0 x1 x2 x3 x4 (ix2 p q)
      = ((∑ k : Fin 256, x1 (ix2 p k) * x2 (ix2 k q)) + x3 (ix1 q)) + ∑ k : Fin 256, x0 (ix2 p k) * x4 (ix2 k q) := by
  unfold out1_5
  rw [View.canon_unit_zero hz]
  simp only [View.ld_unit_zero (S := S2000x256) hz, View.ld_unit_zero (S := S256x2) hz, View.ld_unit_zero (S := S2) hz1]
  exact payload_at x0 x1 x2 x4 x3 p q

/-- The printed index maps, decided over the 25 points: the three row-block windows sit at block `t` of the rows and
    block 0 of the columns, the weight and bias windows at block 0. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The region has 25 points. -/
theorem points : cfg1.N = 25 := by decide +kernel

section AtEntry

variable (V : (c : Dev nD) → (b : Ref sig .tc) → Buf (Elt Ideal) ((c : Thread nD τ).loc b)) (c : Dev nD)

/-- The arrays the windows read, as the region finds them. -/
abbrev x1arr : FVec Ideal S50000x256 .f32 := V c main_v25
abbrev mean2arr : FVec Ideal S50000x256 .f32 := V c main_v38
abbrev W2larr : FVec Ideal S256x2 .f32 := V c main_arg9
abbrev b2larr : FVec Ideal S2 .f32 := V c main_arg10
abbrev W2rarr : FVec Ideal S256x2 .f32 := V c main_arg11

/-- The first layer's rows in block `t`. -/
abbrev x1blk (t : Fin cfg1.N) : Vec Ideal S2000x256 .f32 := iblk1 V c 0 t
/-- Their neighbour means. -/
abbrev mean2blk (t : Fin cfg1.N) : Vec Ideal S2000x256 .f32 := iblk1 V c 1 t
/-- The weights and the bias, whole at every point. -/
abbrev W2lblk (t : Fin cfg1.N) : Vec Ideal S256x2 .f32 := iblk1 V c 2 t
abbrev b2lblk (t : Fin cfg1.N) : Vec Ideal S2 .f32 := iblk1 V c 3 t
abbrev W2rblk (t : Fin cfg1.N) : Vec Ideal S256x2 .f32 := iblk1 V c 4 t

/-- Row `p` of block `t` of the first layer's output is row `2000 t + p` of the array. -/
theorem x1blk_apply (t : Fin cfg1.N) (p : Fin 2000) (k : Fin 256) (r : Fin 50000) (hr : r.val = 2000 * t.val + p.val) :
    x1blk V c t (ix2 p k) = x1arr V c (ix2 r k) := by
  obtain ⟨e0, e1, -⟩ := index_maps t
  unfold x1blk iblk1
  rw [View.read_apply]
  show x1arr V c _ = _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- Row `p` of block `t` of the neighbour means is row `2000 t + p` of the array. -/
theorem mean2blk_apply (t : Fin cfg1.N) (p : Fin 2000) (k : Fin 256) (r : Fin 50000) (hr : r.val = 2000 * t.val + p.val) :
    mean2blk V c t (ix2 p k) = mean2arr V c (ix2 r k) := by
  obtain ⟨-, -, e0, e1, -⟩ := index_maps t
  unfold mean2blk iblk1
  rw [View.read_apply]
  show mean2arr V c _ = _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 256 + 1 * k.val = k.val; rw [e1]; omega

/-- The left weights' block is the whole array at every point. -/
theorem W2lblk_apply (t : Fin cfg1.N) (k : Fin 256) (q : Fin 2) :
    W2lblk V c t (ix2 k q) = W2larr V c (ix2 k q) := by
  obtain ⟨-, -, -, -, e0, e1, -⟩ := index_maps t
  unfold W2lblk iblk1
  rw [View.read_apply]
  show W2larr V c _ = _
  congr 1
  funext a
  apply Fin.ext
  match a with
  | ⟨0, _⟩ => show win1_2.index t (0 : Fin 2) * 256 + 1 * k.val = k.val; rw [e0]; omega
  | ⟨1, _⟩ => show win1_2.index t (1 : Fin 2) * 2 + 1 * q.val = q.val; rw [e1]; omega

/-- The bias's block is the whole array at every point. -/
theorem b2lblk_apply (t : Fin cfg1.N) (q : Fin 2) :
    b2lblk V c t (ix1 q) = b2larr V c (ix1 q) := by
  obtain ⟨-, -, -, -, -, -, e0, -⟩ := index_maps t
  unfold b2lblk iblk1
  rw [View.read_apply]
  show b2larr V c _ = _
  congr 1
  funext a
  apply Fin.ext
  match a with
  | ⟨0, _⟩ => show win1_3.index t (0 : Fin 1) * 2 + 1 * q.val = q.val; rw [e0]; omega

/-- The right weights' block is the whole array at every point. -/
theorem W2rblk_apply (t : Fin cfg1.N) (k : Fin 256) (q : Fin 2) :
    W2rblk V c t (ix2 k q) = W2rarr V c (ix2 k q) := by
  obtain ⟨-, -, -, -, -, -, -, e0, e1, -⟩ := index_maps t
  unfold W2rblk iblk1
  rw [View.read_apply]
  show W2rarr V c _ = _
  congr 1
  funext a
  apply Fin.ext
  match a with
  | ⟨0, _⟩ => show win1_4.index t (0 : Fin 2) * 256 + 1 * k.val = k.val; rw [e0]; omega
  | ⟨1, _⟩ => show win1_4.index t (1 : Fin 2) * 2 + 1 * q.val = q.val; rw [e1]; omega

/-! ## What a point writes back, and the whole array -/

/-- The second layer over the arrays the region is entered at. -/
abbrev layer2 : FVec Ideal S50000x2 .f32 :=
  Cert.Arr.L2arr (x1arr V c) (mean2arr V c) (W2larr V c) (b2larr V c) (W2rarr V c)

/-- The body's value at row `p` of block `t` is the second layer at row `2000 t + p` of the arrays. -/
theorem layer2_row (t : Fin cfg1.N) (p : Fin 2000) (q : Fin 2) (r : Fin 50000) (hr : r.val = 2000 * t.val + p.val) :
    k1_pay1 (F := Ideal) (x1blk V c t) (mean2blk V c t) (W2lblk V c t) (W2rblk V c t) (b2lblk V c t) (ix2 p q)
      = layer2 V c (ix2 r q) := by
  refine (payload_at (x1blk V c t) (mean2blk V c t) (W2lblk V c t) (W2rblk V c t) (b2lblk V c t) p q).trans ?_
  show _ = ((∑ k : Fin 256, mean2arr V c (ix2 r k) * W2larr V c (ix2 k q)) + b2larr V c (ix1 q))
    + ∑ k : Fin 256, x1arr V c (ix2 r k) * W2rarr V c (ix2 k q)
  congr 1
  · congr 1
    · exact Finset.sum_congr rfl fun k _ => by rw [mean2blk_apply V c t p k r hr, W2lblk_apply V c t k q]
    · exact b2lblk_apply V c t q
  · exact Finset.sum_congr rfl fun k _ => by rw [x1blk_apply V c t p k r hr, W2rblk_apply V c t k q]

/-- Point `t` writes back rows `2000 t … 2000 t + 1999` of the second layer. -/
theorem flushed_eq (t : Fin cfg1.N) :
    (dat1 (F := Ideal) V c).flushed 5 t = ((cfg1.win 5).blk t).view.read (Elt Ideal) (layer2 V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x2) hz, View.ld_unit_zero (S := S2) hz1]
  funext j
  obtain ⟨p, q, rfl⟩ : ∃ (p : Fin 2000) (q : Fin 2), j = ix2 p q := ⟨j 0, j 1, eq_ix2 j⟩
  obtain ⟨-, -, -, -, -, -, -, -, -, e0, e1⟩ := index_maps t
  have hN : cfg1.N = 25 := points
  have ht : t.val < 25 := by have := t.isLt; omega
  have hemb : ((cfg1.win 5).blk t).view.emb (ix2 p q)
      = (ix2 (⟨2000 * t.val + p.val, by have := p.isLt; omega⟩ : Fin 50000) q : S50000x2.Idx) := by
    funext a
    apply Fin.ext
    match a with
    | ⟨0, _⟩ => show win1_5.index t (0 : Fin 2) * 2000 + 1 * p.val = 2000 * t.val + p.val; rw [e0]; omega
    | ⟨1, _⟩ => show win1_5.index t (1 : Fin 2) * 2 + 1 * q.val = q.val; rw [e1]; omega
  show k1_pay1 (F := Ideal) (x1blk V c t) (mean2blk V c t) (W2lblk V c t) (W2rblk V c t) (b2lblk V c t) (ix2 p q)
    = layer2 V c (((cfg1.win 5).blk t).view.emb (ix2 p q))
  exact (layer2_row V c t p q _ rfl).trans (congrArg (layer2 V c) hemb).symm

/-- An index of the output array is in point `t`'s block iff each coordinate is in the block's range on its axis. -/
theorem mem_blk (t : Fin cfg1.N) (i : S50000x2.Idx) :
    i ∈ ((cfg1.win 5).blk t).view.set ↔ ∀ a : Fin 2, win1_5.index t a * S2000x2.size a ≤ (i a).val ∧ (i a).val < win1_5.index t a * S2000x2.size a + S2000x2.size a := by
  show i ∈ ((View.whole main_v39).slice (win1_5.rect t)).set ↔ _
  rw [View.set_slice_whole, Rect.mem_set_unit]
  exact Iff.rfl

/-- Every row is in some point's block: row `r` in block `r / 2000`. -/
theorem covered (i : S50000x2.Idx) :
    ∃ t : Fin cfg1.N, (cfg1.win 5).flush t = true ∧ i ∈ ((cfg1.win 5).blk t).view.set := by
  have hi0 : (i 0).val < 50000 := (i 0).isLt
  have hi1 : (i 1).val < 2 := (i 1).isLt
  have hN : cfg1.N = 25 := points
  have hlt : (i 0).val / 2000 < cfg1.N := by rw [hN]; omega
  obtain ⟨-, -, -, -, -, -, -, -, -, e0, e1⟩ := index_maps ⟨(i 0).val / 2000, hlt⟩
  have e0' : win1_5.index ⟨(i 0).val / 2000, hlt⟩ (0 : Fin 2) = (i 0).val / 2000 := e0
  refine ⟨⟨(i 0).val / 2000, hlt⟩, flush1_5 _, ?_⟩
  rw [mem_blk]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e0']; omega
  | ⟨1, _⟩ =>
    show win1_5.index ⟨(i 0).val / 2000, hlt⟩ (1 : Fin 2) * 2 ≤ (i 1).val ∧ (i 1).val < win1_5.index ⟨(i 0).val / 2000, hlt⟩ (1 : Fin 2) * 2 + 2
    rw [e1]; omega

end AtEntry

/-- What region 1 leaves in its output array, for any contents `V` the region is entered at: the second layer of the
    arrays its windows read. -/
theorem arr_out (V : (c : Dev nD) → (b : Ref sig .tc) → Buf (Elt Ideal) ((c : Thread nD τ).loc b)) (c : Dev nD) :
    (dat1 (F := Ideal) V c).arrAt 5 cfg1.N
      = Cert.Arr.L2arr (V c main_v25) (V c main_v38) (V c main_arg9) (V c main_arg10) (V c main_arg11) :=
  (dat1 (F := Ideal) V c).arrAt_eq_of_cover 5 (layer2 V c) (fun t _ => flushed_eq V c t) covered

end Cert.KernelIdeal.Region1

end
-- ==== Proof.KHost.lean ====
/-
  The idealized kernel's result array as a function of the argument arrays. Its @main is two kernel regions among two
  stretches of host operations. The first stretch forms the neighbour mean of the node rows (aggregate times reciprocal
  degree) and leaves the arguments alone; region 0 turns the node rows and that mean into the first layer's rows; the
  second stretch forms the neighbour mean of those rows with the same reciprocal degree; region 1 turns both into the
  second layer's rows, which is the result. Scaling by the reciprocal degree is dividing by the clamped degree, so the
  result is Arrays.lean's `out` of the arguments.
-/
import proofs.«130005_j2680059593393_1_alg».proof.Proof.Gen.KernelIdeal.Frame
import proofs.«130005_j2680059593393_1_alg».proof.Proof.Arrays
import proofs.«130005_j2680059593393_1_alg».proof.Proof.MeanEq
import proofs.«130005_j2680059593393_1_alg».proof.Proof.Region0
import proofs.«130005_j2680059593393_1_alg».proof.Proof.Region1
import Idealize.ShloMosaic.Lib.StableHlo.Run

set_option maxRecDepth 16384

noncomputable section

namespace Cert.KernelIdeal.KVal

open Idealize.ShloMosaic Idealize.ShloMosaic.TcCoe Idealize.SL.Sem Idealize.ShloMosaic.StableHlo
open Cert.KernelIdeal Cert.KernelIdeal.Gen

/-! ## The two host stretches, read at the buffers the regions and the later stretch take -/

section Host
variable (V : Valuation τ sig (Elt Ideal))

/-- The first stretch leaves the neighbour mean of the node rows in the buffer region 0 reads it from. -/
theorem h0_mean : after (hostOps0 (F := Ideal)) V (Proc.devRef .tc main_v24)
    = Cert.Arr.meanK128 (V (Proc.devRef .tc main_arg0)) (Cert.Arr.srcIdx (V (Proc.devRef .tc main_arg1)))
        (Cert.Arr.dstIdx (V (Proc.devRef .tc main_arg1))) (Cert.Arr.degRecip (Cert.Arr.dstIdx (V (Proc.devRef .tc main_arg1)))) := by
  after_results_simp
  rfl
/-- … the source indices, … -/
theorem h0_src : after (hostOps0 (F := Ideal)) V (Proc.devRef .tc main_v1) = Cert.Arr.srcIdx (V (Proc.devRef .tc main_arg1)) := by
  after_results_simp
  rfl
/-- … the destination indices, … -/
theorem h0_dst : after (hostOps0 (F := Ideal)) V (Proc.devRef .tc main_v3) = Cert.Arr.dstIdx (V (Proc.devRef .tc main_arg1)) := by
  after_results_simp
  rfl
/-- … and the reciprocal degree in theirs. -/
theorem h0_recip : after (hostOps0 (F := Ideal)) V (Proc.devRef .tc main_v11)
    = Cert.Arr.degRecip (Cert.Arr.dstIdx (V (Proc.devRef .tc main_arg1))) := by
  after_results_simp
  rfl
/-- It writes no argument. -/
theorem h0_arg0 : after (hostOps0 (F := Ideal)) V (Proc.devRef .tc main_arg0) = V (Proc.devRef .tc main_arg0) := by after_results_simp
theorem h0_arg2 : after (hostOps0 (F := Ideal)) V (Proc.devRef .tc main_arg2) = V (Proc.devRef .tc main_arg2) := by after_results_simp
theorem h0_arg3 : after (hostOps0 (F := Ideal)) V (Proc.devRef .tc main_arg3) = V (Proc.devRef .tc main_arg3) := by after_results_simp
theorem h0_arg4 : after (hostOps0 (F := Ideal)) V (Proc.devRef .tc main_arg4) = V (Proc.devRef .tc main_arg4) := by after_results_simp
theorem h0_arg5 : after (hostOps0 (F := Ideal)) V (Proc.devRef .tc main_arg5) = V (Proc.devRef .tc main_arg5) := by after_results_simp
theorem h0_arg6 : after (hostOps0 (F := Ideal)) V (Proc.devRef .tc main_arg6) = V (Proc.devRef .tc main_arg6) := by after_results_simp
theorem h0_arg7 : after (hostOps0 (F := Ideal)) V (Proc.devRef .tc main_arg7) = V (Proc.devRef .tc main_arg7) := by after_results_simp
theorem h0_arg8 : after (hostOps0 (F := Ideal)) V (Proc.devRef .tc main_arg8) = V (Proc.devRef .tc main_arg8) := by after_results_simp
theorem h0_arg9 : after (hostOps0 (F := Ideal)) V (Proc.devRef .tc main_arg9) = V (Proc.devRef .tc main_arg9) := by after_results_simp
theorem h0_arg10 : after (hostOps0 (F := Ideal)) V (Proc.devRef .tc main_arg10) = V (Proc.devRef .tc main_arg10) := by after_results_simp
theorem h0_arg11 : after (hostOps0 (F := Ideal)) V (Proc.devRef .tc main_arg11) = V (Proc.devRef .tc main_arg11) := by after_results_simp

/-- The second stretch leaves the neighbour mean of the first layer's rows in the buffer region 1 reads it from, … -/
theorem h1_mean : after (hostOps1 (F := Ideal)) V (Proc.devRef .tc main_v38)
    = Cert.Arr.meanK256 (V (Proc.devRef .tc main_v25)) (V (Proc.devRef .tc main_v1)) (V (Proc.devRef .tc main_v3))
        (V (Proc.devRef .tc main_v11)) := by
  after_results_simp
  rfl
/-- … and writes neither the first layer's rows nor an argument. -/
theorem h1_x1 : after (hostOps1 (F := Ideal)) V (Proc.devRef .tc main_v25) = V (Proc.devRef .tc main_v25) := by after_results_simp
theorem h1_arg9 : after (hostOps1 (F := Ideal)) V (Proc.devRef .tc main_arg9) = V (Proc.devRef .tc main_arg9) := by after_results_simp
theorem h1_arg10 : after (hostOps1 (F := Ideal)) V (Proc.devRef .tc main_arg10) = V (Proc.devRef .tc main_arg10) := by after_results_simp
theorem h1_arg11 : after (hostOps1 (F := Ideal)) V (Proc.devRef .tc main_arg11) = V (Proc.devRef .tc main_arg11) := by after_results_simp

end Host

/-! ## The result -/

variable (m : (ℓ : Loc nD τ sig) → Buf (Elt Ideal) ℓ) (ρ : Dev nD → PrngReg)

/-- The first layer's rows, as region 0 leaves them: the first layer of the node rows and their neighbour mean. -/
theorem x1_eq (c : Dev nD) : W2 m ρ c (Proc.devRef .tc main_v25)
    = Cert.Arr.L1arr (m ((c : Thread nD τ).loc main_arg0))
        (Cert.Arr.meanR128 (m ((c : Thread nD τ).loc main_arg0)) (Cert.Arr.srcIdx (m ((c : Thread nD τ).loc main_arg1))) (Cert.Arr.dstIdx (m ((c : Thread nD τ).loc main_arg1))))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W2_arr m ρ c 9).trans ((Cert.KernelIdeal.Region0.arr_out (V1 m ρ) c).trans ?_)
  rw [← Cert.Arr.meanK128_eq]
  show Cert.Arr.L1arr (after hostOps0 (W0 m ρ c) (Proc.devRef .tc main_arg0)) (after hostOps0 (W0 m ρ c) (Proc.devRef .tc main_v24))
      (after hostOps0 (W0 m ρ c) (Proc.devRef .tc main_arg2)) (after hostOps0 (W0 m ρ c) (Proc.devRef .tc main_arg3))
      (after hostOps0 (W0 m ρ c) (Proc.devRef .tc main_arg4)) (after hostOps0 (W0 m ρ c) (Proc.devRef .tc main_arg5))
      (after hostOps0 (W0 m ρ c) (Proc.devRef .tc main_arg6)) (after hostOps0 (W0 m ρ c) (Proc.devRef .tc main_arg7))
      (after hostOps0 (W0 m ρ c) (Proc.devRef .tc main_arg8)) = _
  rw [h0_mean, h0_arg0, h0_arg2, h0_arg3, h0_arg4, h0_arg5, h0_arg6, h0_arg7, h0_arg8]

/-- THE RESULT: the last boundary's contents of the result buffer is `out` of the launch contents of the arguments. -/
theorem value (c : Dev nD) : W4 m ρ c (Proc.devRef .tc main_v39)
    = Cert.Arr.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 5).trans ((Cert.KernelIdeal.Region1.arr_out (V3 m ρ) c).trans ?_)
  show Cert.Arr.L2arr (after hostOps1 (W2 m ρ c) (Proc.devRef .tc main_v25)) (after hostOps1 (W2 m ρ c) (Proc.devRef .tc main_v38))
      (after hostOps1 (W2 m ρ c) (Proc.devRef .tc main_arg9)) (after hostOps1 (W2 m ρ c) (Proc.devRef .tc main_arg10))
      (after hostOps1 (W2 m ρ c) (Proc.devRef .tc main_arg11)) = _
  rw [h1_mean, h1_x1, h1_arg9, h1_arg10, h1_arg11]
  have e1 : W2 m ρ c (Proc.devRef .tc main_v1) = Cert.Arr.srcIdx (m ((c : Thread nD τ).loc main_arg1)) :=
    (W2_of_ne m ρ c main_v1 (by decide)).trans (h0_src (W0 m ρ c))
  have e3 : W2 m ρ c (Proc.devRef .tc main_v3) = Cert.Arr.dstIdx (m ((c : Thread nD τ).loc main_arg1)) :=
    (W2_of_ne m ρ c main_v3 (by decide)).trans (h0_dst (W0 m ρ c))
  have e11 : W2 m ρ c (Proc.devRef .tc main_v11) = Cert.Arr.degRecip (Cert.Arr.dstIdx (m ((c : Thread nD τ).loc main_arg1))) :=
    (W2_of_ne m ρ c main_v11 (by decide)).trans (h0_recip (W0 m ρ c))
  have e9 : W2 m ρ c (Proc.devRef .tc main_arg9) = (m ((c : Thread nD τ).loc main_arg9)) :=
    (W2_of_ne m ρ c main_arg9 (by decide)).trans (h0_arg9 (W0 m ρ c))
  have e10 : W2 m ρ c (Proc.devRef .tc main_arg10) = (m ((c : Thread nD τ).loc main_arg10)) :=
    (W2_of_ne m ρ c main_arg10 (by decide)).trans (h0_arg10 (W0 m ρ c))
  have e11' : W2 m ρ c (Proc.devRef .tc main_arg11) = (m ((c : Thread nD τ).loc main_arg11)) :=
    (W2_of_ne m ρ c main_arg11 (by decide)).trans (h0_arg11 (W0 m ρ c))
  rw [e1, e3, e11, e9, e10, e11', Cert.Arr.meanK256_eq, x1_eq m ρ c]
  rfl

end Cert.KernelIdeal.KVal

end
-- ==== Proof.RRunOps.lean ====
import proofs.«130005_j2680059593393_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order, the called functions' operations at their calls. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    StableHlo.binary main_v22 main_arg2 main_v23 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg3 main_v24 (broadcastInDim S1x256 ![1] bcast_S256_S1x256_1 : (⟨S256, .f32⟩ : BufTy).Contents (Elt F) → (⟨S1x256, .f32⟩ : BufTy).Contents (Elt F)),
    StableHlo.unary main_v24 main_v25 (broadcastInDim S50000x256 ![0, 1] bcast_S1x256_S50000x256_0_1 : (⟨S1x256, .f32⟩ : BufTy).Contents (Elt F) → (⟨S50000x256, .f32⟩ : BufTy).Contents (Elt F)),
    StableHlo.binary main_v23 main_v25 main_v26 (addf : (⟨S50000x256, .f32⟩ : BufTy).Contents (Elt F) → (⟨S50000x256, .f32⟩ : BufTy).Contents (Elt F) → (⟨S50000x256, .f32⟩ : BufTy).Contents (Elt F)),
    StableHlo.binary main_arg0 main_arg4 main_v27 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.binary main_v26 main_v27 main_v28 (addf : (⟨S50000x256, .f32⟩ : BufTy).Contents (Elt F) → (⟨S50000x256, .f32⟩ : BufTy).Contents (Elt F) → (⟨S50000x256, .f32⟩ : BufTy).Contents (Elt F)),
    StableHlo.binary main_arg0 main_arg5 main_v29 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg6 main_v30 (broadcastInDim S1x256 ![1] bcast_S256_S1x256_1 : (⟨S256, .f32⟩ : BufTy).Contents (Elt F) → (⟨S1x256, .f32⟩ : BufTy).Contents (Elt F)),
    StableHlo.unary main_v30 main_v31 (broadcastInDim S50000x256 ![0, 1] bcast_S1x256_S50000x256_0_1 : (⟨S1x256, .f32⟩ : BufTy).Contents (Elt F) → (⟨S50000x256, .f32⟩ : BufTy).Contents (Elt F)),
    StableHlo.binary main_v29 main_v31 main_v32 (addf : (⟨S50000x256, .f32⟩ : BufTy).Contents (Elt F) → (⟨S50000x256, .f32⟩ : BufTy).Contents (Elt F) → (⟨S50000x256, .f32⟩ : BufTy).Contents (Elt F)),
    StableHlo.binary main_v28 main_v32 main_v33 (addf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x00000000#32),
    StableHlo.binary main_v33 main_cst_4 main_v34 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v34 main_v35 (broadcastInDim S50000x1 ![0] bcast_S50000_S50000x1_0 : (⟨S50000, .f32⟩ : BufTy).Contents (Elt F) → (⟨S50000x1, .f32⟩ : BufTy).Contents (Elt F)),
    StableHlo.nullary main_cst_5 (constant S_ .f32 0x43800000#32),
    StableHlo.unary main_cst_5 main_v36 (broadcastInDim S50000x1 ![] bcast_S_S50000x1 : (⟨S_, .f32⟩ : BufTy).Contents (Elt F) → (⟨S50000x1, .f32⟩ : BufTy).Contents (Elt F)),
    StableHlo.binary main_v35 main_v36 main_v37 (Host.divf : (⟨S50000x1, .f32⟩ : BufTy).Contents (Elt F) → (⟨S50000x1, .f32⟩ : BufTy).Contents (Elt F) → (⟨S50000x1, .f32⟩ : BufTy).Contents (Elt F)),
    StableHlo.unary main_v37 main_v38 (broadcastInDim S50000x256 ![0, 1] bcast_S50000x1_S50000x256_0_1 : (⟨S50000x1, .f32⟩ : BufTy).Contents (Elt F) → (⟨S50000x256, .f32⟩ : BufTy).Contents (Elt F)),
    StableHlo.binary main_v33 main_v38 main_v39 (subf : (⟨S50000x256, .f32⟩ : BufTy).Contents (Elt F) → (⟨S50000x256, .f32⟩ : BufTy).Contents (Elt F) → (⟨S50000x256, .f32⟩ : BufTy).Contents (Elt F)),
    StableHlo.binary main_v39 main_v39 main_v40 (mulf : (⟨S50000x256, .f32⟩ : BufTy).Contents (Elt F) → (⟨S50000x256, .f32⟩ : BufTy).Contents (Elt F) → (⟨S50000x256, .f32⟩ : BufTy).Contents (Elt F)),
    StableHlo.nullary main_cst_6 (constant S_ .f32 0x00000000#32),
    StableHlo.binary main_v40 main_cst_6 main_v41 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v41 main_v42 (broadcastInDim S50000x1 ![0] bcast_S50000_S50000x1_0 : (⟨S50000, .f32⟩ : BufTy).Contents (Elt F) → (⟨S50000x1, .f32⟩ : BufTy).Contents (Elt F)),
    StableHlo.nullary main_cst_7 (constant S_ .f32 0x43800000#32),
    StableHlo.unary main_cst_7 main_v43 (broadcastInDim S50000x1 ![] bcast_S_S50000x1 : (⟨S_, .f32⟩ : BufTy).Contents (Elt F) → (⟨S50000x1, .f32⟩ : BufTy).Contents (Elt F)),
    StableHlo.binary main_v42 main_v43 main_v44 (Host.divf : (⟨S50000x1, .f32⟩ : BufTy).Contents (Elt F) → (⟨S50000x1, .f32⟩ : BufTy).Contents (Elt F) → (⟨S50000x1, .f32⟩ : BufTy).Contents (Elt F)),
    StableHlo.unary main_v37 main_v45 (broadcastInDim S50000x256 ![0, 1] bcast_S50000x1_S50000x256_0_1 : (⟨S50000x1, .f32⟩ : BufTy).Contents (Elt F) → (⟨S50000x256, .f32⟩ : BufTy).Contents (Elt F)),
    StableHlo.binary main_v33 main_v45 main_v46 (subf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x3727C5AC#32),
    StableHlo.unary main_cst_8 main_v47 (broadcastInDim S50000x1 ![] bcast_S_S50000x1 : (⟨S_, .f32⟩ : BufTy).Contents (Elt F) → (⟨S50000x1, .f32⟩ : BufTy).Contents (Elt F)),
    StableHlo.binary main_v44 main_v47 main_v48 (addf : (⟨S50000x1, .f32⟩ : BufTy).Contents (Elt F) → (⟨S50000x1, .f32⟩ : BufTy).Contents (Elt F) → (⟨S50000x1, .f32⟩ : BufTy).Contents (Elt F)),
    StableHlo.unary main_v48 main_v49 (Host.rsqrt : (⟨S50000x1, .f32⟩ : BufTy).Contents (Elt F) → (⟨S50000x1, .f32⟩ : BufTy).Contents (Elt F)),
    StableHlo.unary main_v49 main_v50 (broadcastInDim S50000x256 ![0, 1] bcast_S50000x1_S50000x256_0_1 : (⟨S50000x1, .f32⟩ : BufTy).Contents (Elt F) → (⟨S50000x256, .f32⟩ : BufTy).Contents (Elt F)),
    StableHlo.binary main_v46 main_v50 main_v51 (mulf : (⟨S50000x256, .f32⟩ : BufTy).Contents (Elt F) → (⟨S50000x256, .f32⟩ : BufTy).Contents (Elt F) → (⟨S50000x256, .f32⟩ : BufTy).Contents (Elt F)),
    StableHlo.unary main_arg7 main_v52 (broadcastInDim S1x256 ![1] bcast_S256_S1x256_1 : (⟨S256, .f32⟩ : BufTy).Contents (Elt F) → (⟨S1x256, .f32⟩ : BufTy).Contents (Elt F)),
    StableHlo.unary main_v52 main_v53 (broadcastInDim S50000x256 ![0, 1] bcast_S1x256_S50000x256_0_1 : (⟨S1x256, .f32⟩ : BufTy).Contents (Elt F) → (⟨S50000x256, .f32⟩ : BufTy).Contents (Elt F)),
    StableHlo.binary main_v51 main_v53 main_v54 (mulf : (⟨S50000x256, .f32⟩ : BufTy).Contents (Elt F) → (⟨S50000x256, .f32⟩ : BufTy).Contents (Elt F) → (⟨S50000x256, .f32⟩ : BufTy).Contents (Elt F)),
    StableHlo.unary main_arg8 main_v55 (broadcastInDim S1x256 ![1] bcast_S256_S1x256_1 : (⟨S256, .f32⟩ : BufTy).Contents (Elt F) → (⟨S1x256, .f32⟩ : BufTy).Contents (Elt F)),
    StableHlo.unary main_v55 main_v56 (broadcastInDim S50000x256 ![0, 1] bcast_S1x256_S50000x256_0_1 : (⟨S1x256, .f32⟩ : BufTy).Contents (Elt F) → (⟨S50000x256, .f32⟩ : BufTy).Contents (Elt F)),
    StableHlo.binary main_v54 main_v56 main_v57 (addf : (⟨S50000x256, .f32⟩ : BufTy).Contents (Elt F) → (⟨S50000x256, .f32⟩ : BufTy).Contents (Elt F) → (⟨S50000x256, .f32⟩ : BufTy).Contents (Elt F)),
    StableHlo.TRef.nullary main_call0.cst (constant S_ .f32 0x00000000#32),
    StableHlo.TRef.unary main_call0.cst main_call0.v0 (broadcastInDim S50000x256 ![] bcast_S_S50000x256),
    StableHlo.TRef.binary (.of main_v57) main_call0.v0 main_call0.v1 (cmpf .ogt),
    StableHlo.TRef.nullary main_call0.cst_0 (constant S_ .f32 0x00000000#32),
    StableHlo.TRef.unary main_call0.cst_0 main_call0.v2 (broadcastInDim S50000x256 ![] bcast_S_S50000x256),
    StableHlo.TRef.binary (.of main_v57) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S50000x256 ![] bcast_S_S50000x256),
    StableHlo.TRef.ternary main_call0.v3 main_call0.call0.v1 (.of main_v57) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S50000x256 ![] bcast_S_S50000x256),
    StableHlo.TRef.binary main_call0.v6 main_call0.v5 main_call0.v7 mulf,
    StableHlo.TRef.ternary main_call0.v1 (.of main_v57) main_call0.v7 main_call0.call1.v0 select,
    StableHlo.nullary main_c_9 (constantI S_ 32 0#32),
    StableHlo.unary main_c_9 main_v59 (broadcastInDim S800000 ![] bcast_S_S800000 : (⟨S_, .i32⟩ : BufTy).Contents (Elt F) → (⟨S800000, .i32⟩ : BufTy).Contents (Elt F)),
    StableHlo.binary main_v1 main_v59 main_v60 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v61 (broadcastInDim S800000 ![] bcast_S_S800000 : (⟨S_, .i32⟩ : BufTy).Contents (Elt F) → (⟨S800000, .i32⟩ : BufTy).Contents (Elt F)),
    StableHlo.binary main_v1 main_v61 main_v62 (addi : (⟨S800000, .i32⟩ : BufTy).Contents (Elt F) → (⟨S800000, .i32⟩ : BufTy).Contents (Elt F) → (⟨S800000, .i32⟩ : BufTy).Contents (Elt F)),
    StableHlo.ternary main_v60 main_v62 main_v1 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v63 main_v64 (broadcastInDim S800000x1 ![0] bcast_S800000_S800000x1_0 : (⟨S800000, .i32⟩ : BufTy).Contents (Elt F) → (⟨S800000x1, .i32⟩ : BufTy).Contents (Elt F)),
    StableHlo.binary main_v58 main_v64 main_v65 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_11 (constant S_ .f32 0x00000000#32),
    StableHlo.unary main_cst_11 main_v66 (broadcastInDim S50000x256 ![] bcast_S_S50000x256 : (⟨S_, .f32⟩ : BufTy).Contents (Elt F) → (⟨S50000x256, .f32⟩ : BufTy).Contents (Elt F)),
    StableHlo.unary main_v3 main_v67 (broadcastInDim S800000x1 ![0] bcast_S800000_S800000x1_0 : (⟨S800000, .i32⟩ : BufTy).Contents (Elt F) → (⟨S800000x1, .i32⟩ : BufTy).Contents (Elt F)),
    StableHlo.ternary main_v66 main_v67 main_v65 main_v68 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_12 (constant S_ .f32 0x3F800000#32),
    StableHlo.unary main_cst_12 main_v69 (broadcastInDim S800000 ![] bcast_S_S800000 : (⟨S_, .f32⟩ : BufTy).Contents (Elt F) → (⟨S800000, .f32⟩ : BufTy).Contents (Elt F)),
    StableHlo.nullary main_cst_13 (constant S_ .f32 0x00000000#32),
    StableHlo.unary main_cst_13 main_v70 (broadcastInDim S50000 ![] bcast_S_S50000 : (⟨S_, .f32⟩ : BufTy).Contents (Elt F) → (⟨S50000, .f32⟩ : BufTy).Contents (Elt F)),
    StableHlo.unary main_v3 main_v71 (broadcastInDim S800000x1 ![0] bcast_S800000_S800000x1_0 : (⟨S800000, .i32⟩ : BufTy).Contents (Elt F) → (⟨S800000x1, .i32⟩ : BufTy).Contents (Elt F)),
    StableHlo.ternary main_v70 main_v71 main_v69 main_v72 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_14 (constant S_ .f32 0x3F800000#32),
    StableHlo.unary main_cst_14 main_v73 (broadcastInDim S50000 ![] bcast_S_S50000 : (⟨S_, .f32⟩ : BufTy).Contents (Elt F) → (⟨S50000, .f32⟩ : BufTy).Contents (Elt F)),
    StableHlo.binary main_v72 main_v73 main_v74 (maximumf : (⟨S50000, .f32⟩ : BufTy).Contents (Elt F) → (⟨S50000, .f32⟩ : BufTy).Contents (Elt F) → (⟨S50000, .f32⟩ : BufTy).Contents (Elt F)),
    StableHlo.unary main_v74 main_v75 (broadcastInDim S50000x1 ![0] bcast_S50000_S50000x1_0 : (⟨S50000, .f32⟩ : BufTy).Contents (Elt F) → (⟨S50000x1, .f32⟩ : BufTy).Contents (Elt F)),
    StableHlo.unary main_v75 main_v76 (broadcastInDim S50000x256 ![0, 1] bcast_S50000x1_S50000x256_0_1 : (⟨S50000x1, .f32⟩ : BufTy).Contents (Elt F) → (⟨S50000x256, .f32⟩ : BufTy).Contents (Elt F)),
    StableHlo.binary main_v68 main_v76 main_v77 (Host.divf : (⟨S50000x256, .f32⟩ : BufTy).Contents (Elt F) → (⟨S50000x256, .f32⟩ : BufTy).Contents (Elt F) → (⟨S50000x256, .f32⟩ : BufTy).Contents (Elt F)),
    StableHlo.binary main_v77 main_arg9 main_v78 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg10 main_v79 (broadcastInDim S1x2 ![1] bcast_S2_S1x2_1 : (⟨S2, .f32⟩ : BufTy).Contents (Elt F) → (⟨S1x2, .f32⟩ : BufTy).Contents (Elt F)),
    StableHlo.unary main_v79 main_v80 (broadcastInDim S50000x2 ![0, 1] bcast_S1x2_S50000x2_0_1 : (⟨S1x2, .f32⟩ : BufTy).Contents (Elt F) → (⟨S50000x2, .f32⟩ : BufTy).Contents (Elt F)),
    StableHlo.binary main_v78 main_v80 main_v81 (addf : (⟨S50000x2, .f32⟩ : BufTy).Contents (Elt F) → (⟨S50000x2, .f32⟩ : BufTy).Contents (Elt F) → (⟨S50000x2, .f32⟩ : BufTy).Contents (Elt F)),
    StableHlo.binary main_v58 main_arg11 main_v82 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.binary main_v81 main_v82 main_v83 (addf : (⟨S50000x2, .f32⟩ : BufTy).Contents (Elt F) → (⟨S50000x2, .f32⟩ : BufTy).Contents (Elt F) → (⟨S50000x2, .f32⟩ : BufTy).Contents (Elt F)) ]

/-- Each operation touches TensorCore references only. -/
theorem ops_sub : (ops : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub ..⟩

end Cert.ReferenceIdeal.RefRun

end
-- ==== Proof.RefL1.lean ====
/-
  The reference's first layer as its host operations compose it over whole arrays — three matrix products and two
  biases, the row mean and the row variance by sums along the columns, the inverse square root, gain and shift, and the
  exponential linear unit written with `expm1` of the value clipped at zero — read at an index: it is the first layer of
  Spec.lean, row by row. The unit's two forms agree because `expm1 y` is `e^y - 1` and a product with one changes nothing.
-/
import proofs.«130005_j2680059593393_1_alg».proof.ReferenceIdeal
import proofs.«130005_j2680059593393_1_alg».proof.Proof.Gen.ReferenceIdeal
import proofs.«130005_j2680059593393_1_alg».proof.Proof.Arrays
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.RefArr

open Idealize.ShloMosaic Idealize.ShloMosaic.ValueIdx Cert.ReferenceIdeal Cert.ReferenceIdeal.Facts₀ Cert.ReferenceIdeal.Facts
open scoped BigOperators

/-- The sum before the normalisation: `mean · W1l + b1l + x · W1r + (x · Wsk + bsk)`. -/
def refPre (x mean : FVec Ideal S50000x128 .f32) (W1l : FVec Ideal S128x256 .f32) (b1l : FVec Ideal S256 .f32)
    (W1r Wsk : FVec Ideal S128x256 .f32) (bsk : FVec Ideal S256 .f32) : FVec Ideal S50000x256 .f32 :=
  addf (addf (addf (Host.dotGeneral dot_S50000x128_S128x256_S50000x256_1_0_0_1_n_n none mean W1l)
        (broadcastInDim S50000x256 ![0, 1] bcast_S1x256_S50000x256_0_1 (broadcastInDim S1x256 ![1] bcast_S256_S1x256_1 b1l)))
      (Host.dotGeneral dot_S50000x128_S128x256_S50000x256_1_0_0_1_n_n none x W1r))
    (addf (Host.dotGeneral dot_S50000x128_S128x256_S50000x256_1_0_0_1_n_n none x Wsk)
      (broadcastInDim S50000x256 ![0, 1] bcast_S1x256_S50000x256_0_1 (broadcastInDim S1x256 ![1] bcast_S256_S1x256_1 bsk)))

/-- The mean along the columns, kept as a column: the row sums divided by 256. -/
def refMean (p : FVec Ideal S50000x256 .f32) : FVec Ideal S50000x1 .f32 :=
  Host.divf (broadcastInDim S50000x1 ![0] bcast_S50000_S50000x1_0
      (Host.reduceAdd p (constant S_ .f32 0x00000000#32) reducesTo_S50000x256_S50000_d1 h_S_))
    (broadcastInDim S50000x1 ![] bcast_S_S50000x1 (constant S_ .f32 0x43800000#32))

/-- The normalisation with gain and shift. -/
def refNorm (p : FVec Ideal S50000x256 .f32) (g b : FVec Ideal S256 .f32) : FVec Ideal S50000x256 .f32 :=
  addf (mulf (mulf (subf p (broadcastInDim S50000x256 ![0, 1] bcast_S50000x1_S50000x256_0_1 (refMean p)))
        (broadcastInDim S50000x256 ![0, 1] bcast_S50000x1_S50000x256_0_1
          (Host.rsqrt (addf
            (refMean (mulf (subf p (broadcastInDim S50000x256 ![0, 1] bcast_S50000x1_S50000x256_0_1 (refMean p)))
              (subf p (broadcastInDim S50000x256 ![0, 1] bcast_S50000x1_S50000x256_0_1 (refMean p)))))
            (broadcastInDim S50000x1 ![] bcast_S_S50000x1 (constant S_ .f32 0x3727C5AC#32))))))
      (broadcastInDim S50000x256 ![0, 1] bcast_S1x256_S50000x256_0_1 (broadcastInDim S1x256 ![1] bcast_S256_S1x256_1 g)))
    (broadcastInDim S50000x256 ![0, 1] bcast_S1x256_S50000x256_0_1 (broadcastInDim S1x256 ![1] bcast_S256_S1x256_1 b))

/-- The exponential linear unit as jax writes it: above zero the value, else `1 · expm1` of the value clipped at zero. -/
def refElu (y : FVec Ideal S50000x256 .f32) : FVec Ideal S50000x256 .f32 :=
  select (cmpf .ogt y (broadcastInDim S50000x256 ![] bcast_S_S50000x256 (constant S_ .f32 0x00000000#32))) y
    (mulf (broadcastInDim S50000x256 ![] bcast_S_S50000x256 (constant S_ .f32 0x3F800000#32))
      (Host.expm1 (select (cmpf .ogt y (broadcastInDim S50000x256 ![] bcast_S_S50000x256 (constant S_ .f32 0x00000000#32)))
        (broadcastInDim S50000x256 ![] bcast_S_S50000x256 (id (constant S_ .f32 0x00000000#32))) y)))

/-- The reference's first layer over whole arrays. -/
def refL1 (x mean : FVec Ideal S50000x128 .f32) (W1l : FVec Ideal S128x256 .f32) (b1l : FVec Ideal S256 .f32)
    (W1r Wsk : FVec Ideal S128x256 .f32) (bsk g b : FVec Ideal S256 .f32) : FVec Ideal S50000x256 .f32 :=
  refElu (refNorm (refPre x mean W1l b1l W1r Wsk bsk) g b)

/-! ## The matrix product at an index

At result index `(r, q)` and contraction position `k` the left operand is read at `(r, k)` and the right at `(k, q)`:
one lemma per operand axis. -/

theorem dotL_lhs_0 (j : S50000x256.Idx) (k : dot_S50000x128_S128x256_S50000x256_1_0_0_1_n_n.contr.Idx) :
    (dot_S50000x128_S128x256_S50000x256_1_0_0_1_n_n.lhsIdx j k 0).val = (j 0).val := rfl
theorem dotL_lhs_1 (j : S50000x256.Idx) (k : dot_S50000x128_S128x256_S50000x256_1_0_0_1_n_n.contr.Idx) :
    (dot_S50000x128_S128x256_S50000x256_1_0_0_1_n_n.lhsIdx j k 1).val = (k ⟨0, by decide⟩).val :=
  dot_S50000x128_S128x256_S50000x256_1_0_0_1_n_n.lhsIdx_val_of_single rfl j k
theorem dotL_rhs_0 (j : S50000x256.Idx) (k : dot_S50000x128_S128x256_S50000x256_1_0_0_1_n_n.contr.Idx) :
    (dot_S50000x128_S128x256_S50000x256_1_0_0_1_n_n.rhsIdx j k 0).val = (k ⟨0, by decide⟩).val :=
  dot_S50000x128_S128x256_S50000x256_1_0_0_1_n_n.rhsIdx_val_of_single rfl j k
theorem dotL_rhs_1 (j : S50000x256.Idx) (k : dot_S50000x128_S128x256_S50000x256_1_0_0_1_n_n.contr.Idx) :
    (dot_S50000x128_S128x256_S50000x256_1_0_0_1_n_n.rhsIdx j k 1).val = (j 1).val := rfl

/-- The product of a `50000 × 128` array with a `128 × 256` matrix at `(r, q)`: the sum over `k` of row `r` times column `q`. -/
theorem dot_apply (A : FVec Ideal S50000x128 .f32) (W : FVec Ideal S128x256 .f32) (r : Fin 50000) (q : Fin 256) :
    Host.dotGeneral (F := Ideal) dot_S50000x128_S128x256_S50000x256_1_0_0_1_n_n none A W (ix2 r q)
      = ∑ k : Fin 128, A (ix2 r k) * W (ix2 k q) := by
  simp only [Host.dotGeneral]
  rw [Ideal.dotGeneral_apply,
    ← Equiv.sum_comp (contrEquiv1 dot_S50000x128_S128x256_S50000x256_1_0_0_1_n_n 128 rfl rfl).symm]
  refine Finset.sum_congr rfl fun k _ => ?_
  have hk := contrEquiv1_symm_val dot_S50000x128_S128x256_S50000x256_1_0_0_1_n_n 128 rfl rfl k
  have hl : dot_S50000x128_S128x256_S50000x256_1_0_0_1_n_n.lhsIdx (ix2 r q)
      ((contrEquiv1 dot_S50000x128_S128x256_S50000x256_1_0_0_1_n_n 128 rfl rfl).symm k) = ix2 r k := by
    funext a
    refine Fin.ext ?_
    match a with
    | ⟨0, _⟩ => exact dotL_lhs_0 _ _
    | ⟨1, _⟩ => exact (dotL_lhs_1 _ _).trans hk
  have hr : dot_S50000x128_S128x256_S50000x256_1_0_0_1_n_n.rhsIdx (ix2 r q)
      ((contrEquiv1 dot_S50000x128_S128x256_S50000x256_1_0_0_1_n_n 128 rfl rfl).symm k) = ix2 k q := by
    funext a
    refine Fin.ext ?_
    match a with
    | ⟨0, _⟩ => exact (dotL_rhs_0 _ _).trans hk
    | ⟨1, _⟩ => exact dotL_rhs_1 _ _
  rw [hl, hr]

/-! ## Rows, columns and constants spread over an array, at an index -/

/-- A bias row stretched down the rows reads the bias at the column. -/
theorem bias_apply (v : FVec Ideal S256 .f32) (r : Fin 50000) (q : Fin 256) :
    broadcastInDim S50000x256 ![0, 1] bcast_S1x256_S50000x256_0_1 (broadcastInDim S1x256 ![1] bcast_S256_S1x256_1 v) (ix2 r q)
      = v (ix1 q) := by
  rw [broadcastInDim_apply ![0, 1] bcast_S1x256_S50000x256_0_1 _ (ix2 r q) (ix2 (0 : Fin 1) q) ?_]
  · rw [broadcastInDim_apply ![1] bcast_S256_S1x256_1 v (ix2 (0 : Fin 1) q) (ix1 q) ?_]
    intro a
    match a with
    | ⟨0, _⟩ => rfl
  · intro a
    match a with
    | ⟨0, _⟩ => rfl
    | ⟨1, _⟩ => rfl

/-- A column stretched along the columns reads the column at the row. -/
theorem col_apply (c : FVec Ideal S50000x1 .f32) (r : Fin 50000) (q : Fin 256) :
    broadcastInDim S50000x256 ![0, 1] bcast_S50000x1_S50000x256_0_1 c (ix2 r q) = c (ix2 r (0 : Fin 1)) := by
  refine broadcastInDim_apply ![0, 1] bcast_S50000x1_S50000x256_0_1 c (ix2 r q) (ix2 r (0 : Fin 1)) ?_
  intro a
  match a with
  | ⟨0, _⟩ => rfl
  | ⟨1, _⟩ => rfl

/-- A vector of row values stood up as a column reads the value at the row. -/
theorem stand_apply (c : FVec Ideal S50000 .f32) (r : Fin 50000) :
    broadcastInDim S50000x1 ![0] bcast_S50000_S50000x1_0 c (ix2 r (0 : Fin 1)) = c (ix1 r) := by
  refine broadcastInDim_apply ![0] bcast_S50000_S50000x1_0 c (ix2 r (0 : Fin 1)) (ix1 r) ?_
  intro a
  match a with
  | ⟨0, _⟩ => rfl

/-! ## The stages at an index -/

/-- The sum before the normalisation at `(r, q)` is `pre1` of row `r`. -/
theorem refPre_apply (x mean : FVec Ideal S50000x128 .f32) (W1l : FVec Ideal S128x256 .f32) (b1l : FVec Ideal S256 .f32)
    (W1r Wsk : FVec Ideal S128x256 .f32) (bsk : FVec Ideal S256 .f32) (r : Fin 50000) (q : Fin 256) :
    refPre x mean W1l b1l W1r Wsk bsk (ix2 r q)
      = Spec.pre1 (fun k => x (ix2 r k)) (fun k => mean (ix2 r k)) (fun k q => W1l (ix2 k q)) (fun k q => W1r (ix2 k q))
          (fun k q => Wsk (ix2 k q)) (fun q => b1l (ix1 q)) (fun q => bsk (ix1 q)) q := by
  unfold refPre Spec.pre1
  simp only [addf_apply, dot_apply]
  rw [bias_apply, bias_apply]

/-- The column of means at row `r` is the mean of row `r`: the sum along the columns from zero, divided by 256. -/
theorem refMean_apply (p : FVec Ideal S50000x256 .f32) (r : Fin 50000) :
    refMean p (ix2 r (0 : Fin 1)) = Spec.mean256 (fun j => p (ix2 r j)) := by
  unfold refMean Spec.mean256
  rw [hostDivf_apply, broadcastInDim_scalar_apply, constant_apply, stand_apply, hostReduceAdd_apply,
    Ideal.hostReduceAdd_single reducesTo_S50000x256_S50000_d1 (by decide : S50000x256.Reduces [1] S50000),
    constant_apply, Ideal.ofBits_zero_f32, zero_add]
  refine congrArg (fun s => Ideal.div s _) (Finset.sum_congr rfl fun k _ => congrArg p ?_)
  funext a
  match a with
  | ⟨0, _⟩ => rfl
  | ⟨1, _⟩ => rfl

/-- The row centred at its mean. -/
theorem centred_apply (p : FVec Ideal S50000x256 .f32) (r : Fin 50000) (q : Fin 256) :
    subf p (broadcastInDim S50000x256 ![0, 1] bcast_S50000x1_S50000x256_0_1 (refMean p)) (ix2 r q)
      = p (ix2 r q) - Spec.mean256 (fun j => p (ix2 r j)) := by
  rw [subf_apply, col_apply, refMean_apply]

/-- The squares of the centred row. -/
theorem centredSq_apply (p : FVec Ideal S50000x256 .f32) (r : Fin 50000) :
    (fun j : Fin 256 => mulf (subf p (broadcastInDim S50000x256 ![0, 1] bcast_S50000x1_S50000x256_0_1 (refMean p)))
        (subf p (broadcastInDim S50000x256 ![0, 1] bcast_S50000x1_S50000x256_0_1 (refMean p))) (ix2 r j))
      = fun j => (p (ix2 r j) - Spec.mean256 (fun j => p (ix2 r j))) * (p (ix2 r j) - Spec.mean256 (fun j => p (ix2 r j))) :=
  funext fun j => by rw [mulf_apply, centred_apply]

/-- A constant spread over a column reads the number its word encodes. -/
theorem colConst_apply (w : BitVec 32) (i : S50000x1.Idx) :
    broadcastInDim S50000x1 ![] bcast_S_S50000x1 (constant (F := Ideal) S_ .f32 w) i = Ideal.ofBits .f32 w := by
  rw [broadcastInDim_scalar_apply, constant_apply]

/-- A constant spread over the array reads the number its word encodes. -/
theorem arrConst_apply (w : BitVec 32) (i : S50000x256.Idx) :
    broadcastInDim S50000x256 ![] bcast_S_S50000x256 (constant (F := Ideal) S_ .f32 w) i = Ideal.ofBits .f32 w := by
  rw [broadcastInDim_scalar_apply, constant_apply]

/-- The inverse square root at an index is the extended reals' own. -/
theorem hostRsqrt_apply {s : Shape} {φ : FTy} (x : FVec Ideal s φ) (i : s.Idx) :
    Host.rsqrt x i = Ideal.rsqrt (x i) := rfl

/-- `expm1` at an index is `e^x - 1`. -/
theorem hostExpm1_apply {s : Shape} {φ : FTy} (x : FVec Ideal s φ) (i : s.Idx) :
    Host.expm1 x i = Ideal.exp (x i) - 1 := rfl

/-- The normalisation at `(r, q)` is `rowNorm` of row `r`. -/
theorem refNorm_apply (p : FVec Ideal S50000x256 .f32) (g b : FVec Ideal S256 .f32) (r : Fin 50000) (q : Fin 256) :
    refNorm p g b (ix2 r q)
      = Spec.rowNorm (fun j => p (ix2 r j)) (fun j => g (ix1 j)) (fun j => b (ix1 j)) q := by
  unfold refNorm Spec.rowNorm
  rw [addf_apply, mulf_apply, mulf_apply, centred_apply, col_apply, bias_apply, bias_apply, hostRsqrt_apply, addf_apply,
    refMean_apply, colConst_apply, centredSq_apply]

/-- The unit in jax's form is `elu`: above zero both are the value; at and below zero the clipped value is the value
    itself, `expm1 y = e^y - 1`, and the factor one drops. -/
theorem refElu_apply (y : FVec Ideal S50000x256 .f32) (i : S50000x256.Idx) : refElu y i = Spec.elu (y i) := by
  unfold refElu Spec.elu
  rw [select_apply, cmpf_apply, arrConst_apply, Ideal.ofBits_zero_f32, mulf_apply, arrConst_apply, Spec.ofBits_one, one_mul,
    hostExpm1_apply, select_apply, cmpf_apply, arrConst_apply, Ideal.ofBits_zero_f32]
  simp only [id]
  rw [arrConst_apply, Ideal.ofBits_zero_f32, Ideal.cmpf_def]
  by_cases h : 0 < y i
  · have hc : Ideal.cmp CmpFPredicate.ogt (y i) 0 = 1#1 := by simp [Ideal.cmp, h]
    rw [hc, select_one, if_pos h]
  · have hc : Ideal.cmp CmpFPredicate.ogt (y i) 0 = 0#1 := by simp [Ideal.cmp, h]
    rw [hc, select_zero, select_zero, if_neg h]

/-- Read at an index, the reference's first layer is the first layer of Spec.lean. -/
theorem refL1_eq (x mean : FVec Ideal S50000x128 .f32) (W1l : FVec Ideal S128x256 .f32) (b1l : FVec Ideal S256 .f32)
    (W1r Wsk : FVec Ideal S128x256 .f32) (bsk g b : FVec Ideal S256 .f32) :
    refL1 x mean W1l b1l W1r Wsk bsk g b = Cert.Arr.L1arr x mean W1l b1l W1r Wsk bsk g b := by
  funext i
  obtain ⟨r, q, rfl⟩ : ∃ (r : Fin 50000) (q : Fin 256), i = ix2 r q := ⟨i 0, i 1, eq_ix2 i⟩
  rw [Cert.Arr.L1arr_apply]
  unfold refL1 Spec.L1
  rw [refElu_apply, refNorm_apply]
  have hrow : (fun j : Fin 256 => refPre x mean W1l b1l W1r Wsk bsk (ix2 r j))
      = Spec.pre1 (fun k => x (ix2 r k)) (fun k => mean (ix2 r k)) (fun k q => W1l (ix2 k q)) (fun k q => W1r (ix2 k q))
          (fun k q => Wsk (ix2 k q)) (fun q => b1l (ix1 q)) (fun q => bsk (ix1 q)) :=
    funext fun j => refPre_apply x mean W1l b1l W1r Wsk bsk r j
  rw [hrow]

end Cert.RefArr

end
-- ==== Proof.RefL2.lean ====
/-
  The reference's second layer as its host operations compose it over whole arrays — two matrix products and a bias —
  read at an index: it is the second layer of Spec.lean, row by row.
-/
import proofs.«130005_j2680059593393_1_alg».proof.ReferenceIdeal
import proofs.«130005_j2680059593393_1_alg».proof.Proof.Gen.ReferenceIdeal
import proofs.«130005_j2680059593393_1_alg».proof.Proof.Arrays
import Idealize.ShloMosaic.Lib.ValueIdx
import Idealize.ShloMosaic.Lib.ValueLayout
import Idealize.ShloMosaic.Lib.Pipeline.Value
import Idealize.ShloMosaic.PureOps.Ideal.Laws

noncomputable section

namespace Cert.RefArr

open Idealize.ShloMosaic Idealize.ShloMosaic.ValueIdx Cert.ReferenceIdeal Cert.ReferenceIdeal.Facts₀ Cert.ReferenceIdeal.Facts
open scoped BigOperators

/-- The reference's second layer over whole arrays: `mean2 · W2l + b2l + x1 · W2r`. -/
def refL2 (x1 mean2 : FVec Ideal S50000x256 .f32) (W2l : FVec Ideal S256x2 .f32) (b2l : FVec Ideal S2 .f32)
    (W2r : FVec Ideal S256x2 .f32) : FVec Ideal S50000x2 .f32 :=
  addf (addf (Host.dotGeneral dot_S50000x256_S256x2_S50000x2_1_0_0_1_n_n none mean2 W2l)
      (broadcastInDim S50000x2 ![0, 1] bcast_S1x2_S50000x2_0_1 (broadcastInDim S1x2 ![1] bcast_S2_S1x2_1 b2l)))
    (Host.dotGeneral dot_S50000x256_S256x2_S50000x2_1_0_0_1_n_n none x1 W2r)

/-! ## The product's operand indices, axis by axis -/

/-- The left operand's row is the result's row. -/
theorem lhs_dot_0 (j : S50000x2.Idx) (k : dot_S50000x256_S256x2_S50000x2_1_0_0_1_n_n.contr.Idx) :
    (dot_S50000x256_S256x2_S50000x2_1_0_0_1_n_n.lhsIdx j k 0).val = (j 0).val := by
  unfold DotDims.lhsIdx
  rw [dif_neg (show ¬(0 : Fin S50000x256.rank) ∈ dot_S50000x256_S256x2_S50000x2_1_0_0_1_n_n.lhsBatch by decide),
    dif_pos (show (0 : Fin S50000x256.rank) ∈ dot_S50000x256_S256x2_S50000x2_1_0_0_1_n_n.lhsNonContracting by decide)]
  rfl

/-- The left operand's column is the contracted coordinate. -/
theorem lhs_dot_1 (j : S50000x2.Idx) (k : dot_S50000x256_S256x2_S50000x2_1_0_0_1_n_n.contr.Idx) :
    (dot_S50000x256_S256x2_S50000x2_1_0_0_1_n_n.lhsIdx j k 1).val = (k ⟨0, by decide⟩).val :=
  DotDims.lhsIdx_val_of_single dot_S50000x256_S256x2_S50000x2_1_0_0_1_n_n (cl := 1) rfl j k

/-- The right operand's row is the contracted coordinate. -/
theorem rhs_dot_0 (j : S50000x2.Idx) (k : dot_S50000x256_S256x2_S50000x2_1_0_0_1_n_n.contr.Idx) :
    (dot_S50000x256_S256x2_S50000x2_1_0_0_1_n_n.rhsIdx j k 0).val = (k ⟨0, by decide⟩).val :=
  DotDims.rhsIdx_val_of_single dot_S50000x256_S256x2_S50000x2_1_0_0_1_n_n (cr := 0) rfl j k

/-- The right operand's column is the result's column. -/
theorem rhs_dot_1 (j : S50000x2.Idx) (k : dot_S50000x256_S256x2_S50000x2_1_0_0_1_n_n.contr.Idx) :
    (dot_S50000x256_S256x2_S50000x2_1_0_0_1_n_n.rhsIdx j k 1).val = (j 1).val := by
  unfold DotDims.rhsIdx
  rw [dif_neg (show ¬(1 : Fin S256x2.rank) ∈ dot_S50000x256_S256x2_S50000x2_1_0_0_1_n_n.rhsBatch by decide),
    dif_pos (show (1 : Fin S256x2.rank) ∈ dot_S50000x256_S256x2_S50000x2_1_0_0_1_n_n.rhsNonContracting by decide)]
  rfl

/-- The product of a 50000×256 by a 256×2 array, read at an index, is the sum over the contracted coordinate of the
    products of the entries. -/
theorem dotL2_apply (A : FVec Ideal S50000x256 .f32) (B : FVec Ideal S256x2 .f32) (r : Fin 50000) (q : Fin 2) :
    Host.dotGeneral (F := Ideal) dot_S50000x256_S256x2_S50000x2_1_0_0_1_n_n none A B (ix2 r q) = ∑ k : Fin 256, A (ix2 r k) * B (ix2 k q) := by
  simp only [Host.dotGeneral]
  rw [Ideal.dotGeneral_apply, ← Equiv.sum_comp (contrEquiv1 dot_S50000x256_S256x2_S50000x2_1_0_0_1_n_n 256 rfl rfl).symm]
  refine Finset.sum_congr rfl fun c _ => ?_
  have hk := contrEquiv1_symm_val dot_S50000x256_S256x2_S50000x2_1_0_0_1_n_n 256 rfl rfl c
  have hl : dot_S50000x256_S256x2_S50000x2_1_0_0_1_n_n.lhsIdx (ix2 r q) ((contrEquiv1 dot_S50000x256_S256x2_S50000x2_1_0_0_1_n_n 256 rfl rfl).symm c) = ix2 r c := by
    funext ax; apply Fin.ext
    match ax with
    | ⟨0, _⟩ => exact lhs_dot_0 _ _
    | ⟨1, _⟩ => exact (lhs_dot_1 _ _).trans hk
  have hr : dot_S50000x256_S256x2_S50000x2_1_0_0_1_n_n.rhsIdx (ix2 r q) ((contrEquiv1 dot_S50000x256_S256x2_S50000x2_1_0_0_1_n_n 256 rfl rfl).symm c) = ix2 c q := by
    funext ax; apply Fin.ext
    match ax with
    | ⟨0, _⟩ => exact (rhs_dot_0 _ _).trans hk
    | ⟨1, _⟩ => exact rhs_dot_1 _ _
  rw [hl, hr]

/-- The bias broadcast along the rows reads the bias of the column at every row. -/
theorem bcastBias_apply (b2l : FVec Ideal S2 .f32) (r : Fin 50000) (q : Fin 2) :
    broadcastInDim S50000x2 ![0, 1] bcast_S1x2_S50000x2_0_1 (broadcastInDim S1x2 ![1] bcast_S2_S1x2_1 b2l) (ix2 r q)
      = b2l (ix1 q) := by
  refine (broadcastInDim_apply _ _ _ (ix2 r q) (ix2 0 q) ?_).trans ?_
  · intro a
    match a with
    | ⟨0, _⟩ => rfl
    | ⟨1, _⟩ => rfl
  · refine broadcastInDim_apply _ _ b2l (ix2 0 q) (ix1 q) ?_
    intro a
    match a with
    | ⟨0, _⟩ => rfl

/-- Read at an index, the reference's second layer is the second layer of Spec.lean. -/
theorem refL2_eq (x1 mean2 : FVec Ideal S50000x256 .f32) (W2l : FVec Ideal S256x2 .f32) (b2l : FVec Ideal S2 .f32)
    (W2r : FVec Ideal S256x2 .f32) :
    refL2 x1 mean2 W2l b2l W2r = Cert.Arr.L2arr x1 mean2 W2l b2l W2r := by
  funext i
  obtain ⟨r, q, rfl⟩ : ∃ (r : Fin 50000) (q : Fin 2), i = ix2 r q := ⟨i 0, i 1, eq_ix2 i⟩
  rw [Cert.Arr.L2arr_apply]
  unfold Spec.L2 refL2
  rw [addf_apply, addf_apply, dotL2_apply, dotL2_apply, bcastBias_apply]

end Cert.RefArr

end
-- ==== Proof.RRun.lean ====
/-
  The reference program's run. Its @main is a straight line of host operations (the exponential linear unit and the
  two selects it calls written out at their call), so every weakly fair execution terminates with each buffer at the
  operations' fold over the launch contents. Read at the result buffer, that fold is the whole computation of
  Arrays.lean's `out`: the neighbour mean of the node rows, the first layer, the neighbour mean of its rows, the second
  layer; the arguments are written by no operation.
-/
import proofs.«130005_j2680059593393_1_alg».proof.Proof.Gen.ReferenceIdeal
import proofs.«130005_j2680059593393_1_alg».proof.Proof.Arrays
import proofs.«130005_j2680059593393_1_alg».proof.Proof.RRunOps
import proofs.«130005_j2680059593393_1_alg».proof.Proof.RefL1
import proofs.«130005_j2680059593393_1_alg».proof.Proof.RefL2
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- @main is that straight line: its two windows and the called functions unfold to it. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, and every final state has each buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The line in four stretches

The fold over the whole line is the fold over its stretches, one after the other; each stretch is read at the few
buffers the later ones use, from any contents. -/

/-- The first stretch: the edge list's two rows and the neighbour mean of the node rows. -/
abbrev opsA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v21 main_v22 (Host.divf : (⟨S50000x128, .f32⟩ : BufTy).Contents (Elt F) → (⟨S50000x128, .f32⟩ : BufTy).Contents (Elt F) → (⟨S50000x128, .f32⟩ : BufTy).Contents (Elt F)) ]

/-- The second stretch: the first layer's sum, its normalisation, gain and shift. -/
abbrev opsB : List (HloOp τ sig (Elt F)) :=
  [ StableHlo.binary main_v22 main_arg2 main_v23 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg3 main_v24 (broadcastInDim S1x256 ![1] bcast_S256_S1x256_1 : (⟨S256, .f32⟩ : BufTy).Contents (Elt F) → (⟨S1x256, .f32⟩ : BufTy).Contents (Elt F)),
    StableHlo.unary main_v24 main_v25 (broadcastInDim S50000x256 ![0, 1] bcast_S1x256_S50000x256_0_1 : (⟨S1x256, .f32⟩ : BufTy).Contents (Elt F) → (⟨S50000x256, .f32⟩ : BufTy).Contents (Elt F)),
    StableHlo.binary main_v23 main_v25 main_v26 (addf : (⟨S50000x256, .f32⟩ : BufTy).Contents (Elt F) → (⟨S50000x256, .f32⟩ : BufTy).Contents (Elt F) → (⟨S50000x256, .f32⟩ : BufTy).Contents (Elt F)),
    StableHlo.binary main_arg0 main_arg4 main_v27 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.binary main_v26 main_v27 main_v28 (addf : (⟨S50000x256, .f32⟩ : BufTy).Contents (Elt F) → (⟨S50000x256, .f32⟩ : BufTy).Contents (Elt F) → (⟨S50000x256, .f32⟩ : BufTy).Contents (Elt F)),
    StableHlo.binary main_arg0 main_arg5 main_v29 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg6 main_v30 (broadcastInDim S1x256 ![1] bcast_S256_S1x256_1 : (⟨S256, .f32⟩ : BufTy).Contents (Elt F) → (⟨S1x256, .f32⟩ : BufTy).Contents (Elt F)),
    StableHlo.unary main_v30 main_v31 (broadcastInDim S50000x256 ![0, 1] bcast_S1x256_S50000x256_0_1 : (⟨S1x256, .f32⟩ : BufTy).Contents (Elt F) → (⟨S50000x256, .f32⟩ : BufTy).Contents (Elt F)),
    StableHlo.binary main_v29 main_v31 main_v32 (addf : (⟨S50000x256, .f32⟩ : BufTy).Contents (Elt F) → (⟨S50000x256, .f32⟩ : BufTy).Contents (Elt F) → (⟨S50000x256, .f32⟩ : BufTy).Contents (Elt F)),
    StableHlo.binary main_v28 main_v32 main_v33 (addf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x00000000#32),
    StableHlo.binary main_v33 main_cst_4 main_v34 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v34 main_v35 (broadcastInDim S50000x1 ![0] bcast_S50000_S50000x1_0 : (⟨S50000, .f32⟩ : BufTy).Contents (Elt F) → (⟨S50000x1, .f32⟩ : BufTy).Contents (Elt F)),
    StableHlo.nullary main_cst_5 (constant S_ .f32 0x43800000#32),
    StableHlo.unary main_cst_5 main_v36 (broadcastInDim S50000x1 ![] bcast_S_S50000x1 : (⟨S_, .f32⟩ : BufTy).Contents (Elt F) → (⟨S50000x1, .f32⟩ : BufTy).Contents (Elt F)),
    StableHlo.binary main_v35 main_v36 main_v37 (Host.divf : (⟨S50000x1, .f32⟩ : BufTy).Contents (Elt F) → (⟨S50000x1, .f32⟩ : BufTy).Contents (Elt F) → (⟨S50000x1, .f32⟩ : BufTy).Contents (Elt F)),
    StableHlo.unary main_v37 main_v38 (broadcastInDim S50000x256 ![0, 1] bcast_S50000x1_S50000x256_0_1 : (⟨S50000x1, .f32⟩ : BufTy).Contents (Elt F) → (⟨S50000x256, .f32⟩ : BufTy).Contents (Elt F)),
    StableHlo.binary main_v33 main_v38 main_v39 (subf : (⟨S50000x256, .f32⟩ : BufTy).Contents (Elt F) → (⟨S50000x256, .f32⟩ : BufTy).Contents (Elt F) → (⟨S50000x256, .f32⟩ : BufTy).Contents (Elt F)),
    StableHlo.binary main_v39 main_v39 main_v40 (mulf : (⟨S50000x256, .f32⟩ : BufTy).Contents (Elt F) → (⟨S50000x256, .f32⟩ : BufTy).Contents (Elt F) → (⟨S50000x256, .f32⟩ : BufTy).Contents (Elt F)),
    StableHlo.nullary main_cst_6 (constant S_ .f32 0x00000000#32),
    StableHlo.binary main_v40 main_cst_6 main_v41 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v41 main_v42 (broadcastInDim S50000x1 ![0] bcast_S50000_S50000x1_0 : (⟨S50000, .f32⟩ : BufTy).Contents (Elt F) → (⟨S50000x1, .f32⟩ : BufTy).Contents (Elt F)),
    StableHlo.nullary main_cst_7 (constant S_ .f32 0x43800000#32),
    StableHlo.unary main_cst_7 main_v43 (broadcastInDim S50000x1 ![] bcast_S_S50000x1 : (⟨S_, .f32⟩ : BufTy).Contents (Elt F) → (⟨S50000x1, .f32⟩ : BufTy).Contents (Elt F)),
    StableHlo.binary main_v42 main_v43 main_v44 (Host.divf : (⟨S50000x1, .f32⟩ : BufTy).Contents (Elt F) → (⟨S50000x1, .f32⟩ : BufTy).Contents (Elt F) → (⟨S50000x1, .f32⟩ : BufTy).Contents (Elt F)),
    StableHlo.unary main_v37 main_v45 (broadcastInDim S50000x256 ![0, 1] bcast_S50000x1_S50000x256_0_1 : (⟨S50000x1, .f32⟩ : BufTy).Contents (Elt F) → (⟨S50000x256, .f32⟩ : BufTy).Contents (Elt F)),
    StableHlo.binary main_v33 main_v45 main_v46 (subf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x3727C5AC#32),
    StableHlo.unary main_cst_8 main_v47 (broadcastInDim S50000x1 ![] bcast_S_S50000x1 : (⟨S_, .f32⟩ : BufTy).Contents (Elt F) → (⟨S50000x1, .f32⟩ : BufTy).Contents (Elt F)),
    StableHlo.binary main_v44 main_v47 main_v48 (addf : (⟨S50000x1, .f32⟩ : BufTy).Contents (Elt F) → (⟨S50000x1, .f32⟩ : BufTy).Contents (Elt F) → (⟨S50000x1, .f32⟩ : BufTy).Contents (Elt F)),
    StableHlo.unary main_v48 main_v49 (Host.rsqrt : (⟨S50000x1, .f32⟩ : BufTy).Contents (Elt F) → (⟨S50000x1, .f32⟩ : BufTy).Contents (Elt F)),
    StableHlo.unary main_v49 main_v50 (broadcastInDim S50000x256 ![0, 1] bcast_S50000x1_S50000x256_0_1 : (⟨S50000x1, .f32⟩ : BufTy).Contents (Elt F) → (⟨S50000x256, .f32⟩ : BufTy).Contents (Elt F)),
    StableHlo.binary main_v46 main_v50 main_v51 (mulf : (⟨S50000x256, .f32⟩ : BufTy).Contents (Elt F) → (⟨S50000x256, .f32⟩ : BufTy).Contents (Elt F) → (⟨S50000x256, .f32⟩ : BufTy).Contents (Elt F)),
    StableHlo.unary main_arg7 main_v52 (broadcastInDim S1x256 ![1] bcast_S256_S1x256_1 : (⟨S256, .f32⟩ : BufTy).Contents (Elt F) → (⟨S1x256, .f32⟩ : BufTy).Contents (Elt F)),
    StableHlo.unary main_v52 main_v53 (broadcastInDim S50000x256 ![0, 1] bcast_S1x256_S50000x256_0_1 : (⟨S1x256, .f32⟩ : BufTy).Contents (Elt F) → (⟨S50000x256, .f32⟩ : BufTy).Contents (Elt F)),
    StableHlo.binary main_v51 main_v53 main_v54 (mulf : (⟨S50000x256, .f32⟩ : BufTy).Contents (Elt F) → (⟨S50000x256, .f32⟩ : BufTy).Contents (Elt F) → (⟨S50000x256, .f32⟩ : BufTy).Contents (Elt F)),
    StableHlo.unary main_arg8 main_v55 (broadcastInDim S1x256 ![1] bcast_S256_S1x256_1 : (⟨S256, .f32⟩ : BufTy).Contents (Elt F) → (⟨S1x256, .f32⟩ : BufTy).Contents (Elt F)),
    StableHlo.unary main_v55 main_v56 (broadcastInDim S50000x256 ![0, 1] bcast_S1x256_S50000x256_0_1 : (⟨S1x256, .f32⟩ : BufTy).Contents (Elt F) → (⟨S50000x256, .f32⟩ : BufTy).Contents (Elt F)),
    StableHlo.binary main_v54 main_v56 main_v57 (addf : (⟨S50000x256, .f32⟩ : BufTy).Contents (Elt F) → (⟨S50000x256, .f32⟩ : BufTy).Contents (Elt F) → (⟨S50000x256, .f32⟩ : BufTy).Contents (Elt F)) ]

/-- The third stretch: the exponential linear unit, written out. -/
abbrev opsC : List (HloOp τ sig (Elt F)) :=
  [ StableHlo.TRef.nullary main_call0.cst (constant S_ .f32 0x00000000#32),
    StableHlo.TRef.unary main_call0.cst main_call0.v0 (broadcastInDim S50000x256 ![] bcast_S_S50000x256),
    StableHlo.TRef.binary (.of main_v57) main_call0.v0 main_call0.v1 (cmpf .ogt),
    StableHlo.TRef.nullary main_call0.cst_0 (constant S_ .f32 0x00000000#32),
    StableHlo.TRef.unary main_call0.cst_0 main_call0.v2 (broadcastInDim S50000x256 ![] bcast_S_S50000x256),
    StableHlo.TRef.binary (.of main_v57) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S50000x256 ![] bcast_S_S50000x256),
    StableHlo.TRef.ternary main_call0.v3 main_call0.call0.v1 (.of main_v57) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S50000x256 ![] bcast_S_S50000x256),
    StableHlo.TRef.binary main_call0.v6 main_call0.v5 main_call0.v7 mulf,
    StableHlo.TRef.ternary main_call0.v1 (.of main_v57) main_call0.v7 main_call0.call1.v0 select ]

/-- The fourth stretch: the neighbour mean of the first layer's rows and the second layer. -/
abbrev opsD : List (HloOp τ sig (Elt F)) :=
  [ StableHlo.nullary main_c_9 (constantI S_ 32 0#32),
    StableHlo.unary main_c_9 main_v59 (broadcastInDim S800000 ![] bcast_S_S800000 : (⟨S_, .i32⟩ : BufTy).Contents (Elt F) → (⟨S800000, .i32⟩ : BufTy).Contents (Elt F)),
    StableHlo.binary main_v1 main_v59 main_v60 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v61 (broadcastInDim S800000 ![] bcast_S_S800000 : (⟨S_, .i32⟩ : BufTy).Contents (Elt F) → (⟨S800000, .i32⟩ : BufTy).Contents (Elt F)),
    StableHlo.binary main_v1 main_v61 main_v62 (addi : (⟨S800000, .i32⟩ : BufTy).Contents (Elt F) → (⟨S800000, .i32⟩ : BufTy).Contents (Elt F) → (⟨S800000, .i32⟩ : BufTy).Contents (Elt F)),
    StableHlo.ternary main_v60 main_v62 main_v1 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v63 main_v64 (broadcastInDim S800000x1 ![0] bcast_S800000_S800000x1_0 : (⟨S800000, .i32⟩ : BufTy).Contents (Elt F) → (⟨S800000x1, .i32⟩ : BufTy).Contents (Elt F)),
    StableHlo.binary main_v58 main_v64 main_v65 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_11 (constant S_ .f32 0x00000000#32),
    StableHlo.unary main_cst_11 main_v66 (broadcastInDim S50000x256 ![] bcast_S_S50000x256 : (⟨S_, .f32⟩ : BufTy).Contents (Elt F) → (⟨S50000x256, .f32⟩ : BufTy).Contents (Elt F)),
    StableHlo.unary main_v3 main_v67 (broadcastInDim S800000x1 ![0] bcast_S800000_S800000x1_0 : (⟨S800000, .i32⟩ : BufTy).Contents (Elt F) → (⟨S800000x1, .i32⟩ : BufTy).Contents (Elt F)),
    StableHlo.ternary main_v66 main_v67 main_v65 main_v68 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_12 (constant S_ .f32 0x3F800000#32),
    StableHlo.unary main_cst_12 main_v69 (broadcastInDim S800000 ![] bcast_S_S800000 : (⟨S_, .f32⟩ : BufTy).Contents (Elt F) → (⟨S800000, .f32⟩ : BufTy).Contents (Elt F)),
    StableHlo.nullary main_cst_13 (constant S_ .f32 0x00000000#32),
    StableHlo.unary main_cst_13 main_v70 (broadcastInDim S50000 ![] bcast_S_S50000 : (⟨S_, .f32⟩ : BufTy).Contents (Elt F) → (⟨S50000, .f32⟩ : BufTy).Contents (Elt F)),
    StableHlo.unary main_v3 main_v71 (broadcastInDim S800000x1 ![0] bcast_S800000_S800000x1_0 : (⟨S800000, .i32⟩ : BufTy).Contents (Elt F) → (⟨S800000x1, .i32⟩ : BufTy).Contents (Elt F)),
    StableHlo.ternary main_v70 main_v71 main_v69 main_v72 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_14 (constant S_ .f32 0x3F800000#32),
    StableHlo.unary main_cst_14 main_v73 (broadcastInDim S50000 ![] bcast_S_S50000 : (⟨S_, .f32⟩ : BufTy).Contents (Elt F) → (⟨S50000, .f32⟩ : BufTy).Contents (Elt F)),
    StableHlo.binary main_v72 main_v73 main_v74 (maximumf : (⟨S50000, .f32⟩ : BufTy).Contents (Elt F) → (⟨S50000, .f32⟩ : BufTy).Contents (Elt F) → (⟨S50000, .f32⟩ : BufTy).Contents (Elt F)),
    StableHlo.unary main_v74 main_v75 (broadcastInDim S50000x1 ![0] bcast_S50000_S50000x1_0 : (⟨S50000, .f32⟩ : BufTy).Contents (Elt F) → (⟨S50000x1, .f32⟩ : BufTy).Contents (Elt F)),
    StableHlo.unary main_v75 main_v76 (broadcastInDim S50000x256 ![0, 1] bcast_S50000x1_S50000x256_0_1 : (⟨S50000x1, .f32⟩ : BufTy).Contents (Elt F) → (⟨S50000x256, .f32⟩ : BufTy).Contents (Elt F)),
    StableHlo.binary main_v68 main_v76 main_v77 (Host.divf : (⟨S50000x256, .f32⟩ : BufTy).Contents (Elt F) → (⟨S50000x256, .f32⟩ : BufTy).Contents (Elt F) → (⟨S50000x256, .f32⟩ : BufTy).Contents (Elt F)),
    StableHlo.binary main_v77 main_arg9 main_v78 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg10 main_v79 (broadcastInDim S1x2 ![1] bcast_S2_S1x2_1 : (⟨S2, .f32⟩ : BufTy).Contents (Elt F) → (⟨S1x2, .f32⟩ : BufTy).Contents (Elt F)),
    StableHlo.unary main_v79 main_v80 (broadcastInDim S50000x2 ![0, 1] bcast_S1x2_S50000x2_0_1 : (⟨S1x2, .f32⟩ : BufTy).Contents (Elt F) → (⟨S50000x2, .f32⟩ : BufTy).Contents (Elt F)),
    StableHlo.binary main_v78 main_v80 main_v81 (addf : (⟨S50000x2, .f32⟩ : BufTy).Contents (Elt F) → (⟨S50000x2, .f32⟩ : BufTy).Contents (Elt F) → (⟨S50000x2, .f32⟩ : BufTy).Contents (Elt F)),
    StableHlo.binary main_v58 main_arg11 main_v82 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.binary main_v81 main_v82 main_v83 (addf : (⟨S50000x2, .f32⟩ : BufTy).Contents (Elt F) → (⟨S50000x2, .f32⟩ : BufTy).Contents (Elt F) → (⟨S50000x2, .f32⟩ : BufTy).Contents (Elt F)) ]

/-- The line is its four stretches, in order. -/
theorem ops_split : (ops : List (HloOp τ sig (Elt F))) = opsA ++ (opsB ++ (opsC ++ opsD)) := rfl

/-! ## The four stretches read at the buffers the later ones use -/

/-- The first stretch leaves the edge list's first row, reshaped, in its buffer. -/
theorem A_v1 (W : Valuation τ sig (Elt Ideal)) :
    after (opsA (F := Ideal)) W (main_v1 : DevRef τ sig) = Cert.Arr.srcIdx (W (main_arg1 : DevRef τ sig)) := by
  after_results_simp
  rfl

/-- And the second row in its. -/
theorem A_v3 (W : Valuation τ sig (Elt Ideal)) :
    after (opsA (F := Ideal)) W (main_v3 : DevRef τ sig) = Cert.Arr.dstIdx (W (main_arg1 : DevRef τ sig)) := by
  after_results_simp
  rfl

/-- The first stretch ends with the neighbour mean of the node rows. -/
theorem A_v22 (W : Valuation τ sig (Elt Ideal)) :
    after (opsA (F := Ideal)) W (main_v22 : DevRef τ sig)
      = Cert.Arr.meanR128 (W (main_arg0 : DevRef τ sig)) (Cert.Arr.srcIdx (W (main_arg1 : DevRef τ sig))) (Cert.Arr.dstIdx (W (main_arg1 : DevRef τ sig))) := by
  after_results_simp
  rfl

theorem A_arg0 (W : Valuation τ sig (Elt Ideal)) :
    after (opsA (F := Ideal)) W (main_arg0 : DevRef τ sig) = W (main_arg0 : DevRef τ sig) := by
  after_results_simp

theorem A_arg2 (W : Valuation τ sig (Elt Ideal)) :
    after (opsA (F := Ideal)) W (main_arg2 : DevRef τ sig) = W (main_arg2 : DevRef τ sig) := by
  after_results_simp

theorem A_arg3 (W : Valuation τ sig (Elt Ideal)) :
    after (opsA (F := Ideal)) W (main_arg3 : DevRef τ sig) = W (main_arg3 : DevRef τ sig) := by
  after_results_simp

theorem A_arg4 (W : Valuation τ sig (Elt Ideal)) :
    after (opsA (F := Ideal)) W (main_arg4 : DevRef τ sig) = W (main_arg4 : DevRef τ sig) := by
  after_results_simp

theorem A_arg5 (W : Valuation τ sig (Elt Ideal)) :
    after (opsA (F := Ideal)) W (main_arg5 : DevRef τ sig) = W (main_arg5 : DevRef τ sig) := by
  after_results_simp

theorem A_arg6 (W : Valuation τ sig (Elt Ideal)) :
    after (opsA (F := Ideal)) W (main_arg6 : DevRef τ sig) = W (main_arg6 : DevRef τ sig) := by
  after_results_simp

theorem A_arg7 (W : Valuation τ sig (Elt Ideal)) :
    after (opsA (F := Ideal)) W (main_arg7 : DevRef τ sig) = W (main_arg7 : DevRef τ sig) := by
  after_results_simp

theorem A_arg8 (W : Valuation τ sig (Elt Ideal)) :
    after (opsA (F := Ideal)) W (main_arg8 : DevRef τ sig) = W (main_arg8 : DevRef τ sig) := by
  after_results_simp

theorem A_arg9 (W : Valuation τ sig (Elt Ideal)) :
    after (opsA (F := Ideal)) W (main_arg9 : DevRef τ sig) = W (main_arg9 : DevRef τ sig) := by
  after_results_simp

theorem A_arg10 (W : Valuation τ sig (Elt Ideal)) :
    after (opsA (F := Ideal)) W (main_arg10 : DevRef τ sig) = W (main_arg10 : DevRef τ sig) := by
  after_results_simp

theorem A_arg11 (W : Valuation τ sig (Elt Ideal)) :
    after (opsA (F := Ideal)) W (main_arg11 : DevRef τ sig) = W (main_arg11 : DevRef τ sig) := by
  after_results_simp

/-- The second stretch ends with the first layer's normalised sum. -/
theorem B_v57 (W : Valuation τ sig (Elt Ideal)) :
    after (opsB (F := Ideal)) W (main_v57 : DevRef τ sig)
      = Cert.RefArr.refNorm (Cert.RefArr.refPre (W (main_arg0 : DevRef τ sig)) (W (main_v22 : DevRef τ sig)) (W (main_arg2 : DevRef τ sig)) (W (main_arg3 : DevRef τ sig))
          (W (main_arg4 : DevRef τ sig)) (W (main_arg5 : DevRef τ sig)) (W (main_arg6 : DevRef τ sig))) (W (main_arg7 : DevRef τ sig)) (W (main_arg8 : DevRef τ sig)) := by
  after_results_simp
  rfl

theorem B_v1 (W : Valuation τ sig (Elt Ideal)) :
    after (opsB (F := Ideal)) W (main_v1 : DevRef τ sig) = W (main_v1 : DevRef τ sig) := by
  after_results_simp

theorem B_v3 (W : Valuation τ sig (Elt Ideal)) :
    after (opsB (F := Ideal)) W (main_v3 : DevRef τ sig) = W (main_v3 : DevRef τ sig) := by
  after_results_simp

theorem B_arg9 (W : Valuation τ sig (Elt Ideal)) :
    after (opsB (F := Ideal)) W (main_arg9 : DevRef τ sig) = W (main_arg9 : DevRef τ sig) := by
  after_results_simp

theorem B_arg10 (W : Valuation τ sig (Elt Ideal)) :
    after (opsB (F := Ideal)) W (main_arg10 : DevRef τ sig) = W (main_arg10 : DevRef τ sig) := by
  after_results_simp

theorem B_arg11 (W : Valuation τ sig (Elt Ideal)) :
    after (opsB (F := Ideal)) W (main_arg11 : DevRef τ sig) = W (main_arg11 : DevRef τ sig) := by
  after_results_simp

/-- The third stretch is the exponential linear unit of the buffer it reads. -/
theorem C_v58 (W : Valuation τ sig (Elt Ideal)) :
    after (opsC (F := Ideal)) W (main_v58 : DevRef τ sig) = Cert.RefArr.refElu (W (main_v57 : DevRef τ sig)) := by
  after_results_simp
  rfl

theorem C_v1 (W : Valuation τ sig (Elt Ideal)) :
    after (opsC (F := Ideal)) W (main_v1 : DevRef τ sig) = W (main_v1 : DevRef τ sig) := by
  after_results_simp

theorem C_v3 (W : Valuation τ sig (Elt Ideal)) :
    after (opsC (F := Ideal)) W (main_v3 : DevRef τ sig) = W (main_v3 : DevRef τ sig) := by
  after_results_simp

theorem C_arg9 (W : Valuation τ sig (Elt Ideal)) :
    after (opsC (F := Ideal)) W (main_arg9 : DevRef τ sig) = W (main_arg9 : DevRef τ sig) := by
  after_results_simp

theorem C_arg10 (W : Valuation τ sig (Elt Ideal)) :
    after (opsC (F := Ideal)) W (main_arg10 : DevRef τ sig) = W (main_arg10 : DevRef τ sig) := by
  after_results_simp

theorem C_arg11 (W : Valuation τ sig (Elt Ideal)) :
    after (opsC (F := Ideal)) W (main_arg11 : DevRef τ sig) = W (main_arg11 : DevRef τ sig) := by
  after_results_simp

/-- The fourth stretch ends with the second layer over the rows it reads and their neighbour mean. -/
theorem D_v83 (W : Valuation τ sig (Elt Ideal)) :
    after (opsD (F := Ideal)) W (main_v83 : DevRef τ sig)
      = Cert.RefArr.refL2 (W (main_v58 : DevRef τ sig)) (Cert.Arr.meanR256 (W (main_v58 : DevRef τ sig)) (W (main_v1 : DevRef τ sig)) (W (main_v3 : DevRef τ sig)))
          (W (main_arg9 : DevRef τ sig)) (W (main_arg10 : DevRef τ sig)) (W (main_arg11 : DevRef τ sig)) := by
  after_results_simp
  rfl

/-- The fold read at the result buffer: the whole computation, in the reference's form. -/
theorem out_eq (V : Valuation τ sig (Elt Ideal)) :
    after (ops (F := Ideal)) V (main_v83 : DevRef τ sig)
      = Cert.Arr.out (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig)) := by
  rw [ops_split, after_append, after_append, after_append]
  rw [D_v83, C_v58, C_v1, C_v3, C_arg9, C_arg10, C_arg11, B_v57, B_v1, B_v3, B_arg9, B_arg10, B_arg11,
    A_v22, A_v1, A_v3, A_arg0, A_arg2, A_arg3, A_arg4, A_arg5, A_arg6, A_arg7, A_arg8, A_arg9, A_arg10, A_arg11]
  unfold Cert.Arr.out
  rw [← Cert.RefArr.refL1_eq, ← Cert.RefArr.refL2_eq]
  rfl

/-! ## The arguments: no operation writes them -/

set_option maxRecDepth 8192 in
set_option maxHeartbeats 4000000 in
theorem arg0_eq (V : Valuation τ sig (Elt Ideal)) :
    after (ops (F := Ideal)) V (main_arg0 : DevRef τ sig) = V (main_arg0 : DevRef τ sig) := by
  after_results_simp

set_option maxRecDepth 8192 in
set_option maxHeartbeats 4000000 in
theorem arg1_eq (V : Valuation τ sig (Elt Ideal)) :
    after (ops (F := Ideal)) V (main_arg1 : DevRef τ sig) = V (main_arg1 : DevRef τ sig) := by
  after_results_simp

set_option maxRecDepth 8192 in
set_option maxHeartbeats 4000000 in
theorem arg2_eq (V : Valuation τ sig (Elt Ideal)) :
    after (ops (F := Ideal)) V (main_arg2 : DevRef τ sig) = V (main_arg2 : DevRef τ sig) := by
  after_results_simp

set_option maxRecDepth 8192 in
set_option maxHeartbeats 4000000 in
theorem arg3_eq (V : Valuation τ sig (Elt Ideal)) :
    after (ops (F := Ideal)) V (main_arg3 : DevRef τ sig) = V (main_arg3 : DevRef τ sig) := by
  after_results_simp

set_option maxRecDepth 8192 in
set_option maxHeartbeats 4000000 in
theorem arg4_eq (V : Valuation τ sig (Elt Ideal)) :
    after (ops (F := Ideal)) V (main_arg4 : DevRef τ sig) = V (main_arg4 : DevRef τ sig) := by
  after_results_simp

set_option maxRecDepth 8192 in
set_option maxHeartbeats 4000000 in
theorem arg5_eq (V : Valuation τ sig (Elt Ideal)) :
    after (ops (F := Ideal)) V (main_arg5 : DevRef τ sig) = V (main_arg5 : DevRef τ sig) := by
  after_results_simp

set_option maxRecDepth 8192 in
set_option maxHeartbeats 4000000 in
theorem arg6_eq (V : Valuation τ sig (Elt Ideal)) :
    after (ops (F := Ideal)) V (main_arg6 : DevRef τ sig) = V (main_arg6 : DevRef τ sig) := by
  after_results_simp

set_option maxRecDepth 8192 in
set_option maxHeartbeats 4000000 in
theorem arg7_eq (V : Valuation τ sig (Elt Ideal)) :
    after (ops (F := Ideal)) V (main_arg7 : DevRef τ sig) = V (main_arg7 : DevRef τ sig) := by
  after_results_simp

set_option maxRecDepth 8192 in
set_option maxHeartbeats 4000000 in
theorem arg8_eq (V : Valuation τ sig (Elt Ideal)) :
    after (ops (F := Ideal)) V (main_arg8 : DevRef τ sig) = V (main_arg8 : DevRef τ sig) := by
  after_results_simp

set_option maxRecDepth 8192 in
set_option maxHeartbeats 4000000 in
theorem arg9_eq (V : Valuation τ sig (Elt Ideal)) :
    after (ops (F := Ideal)) V (main_arg9 : DevRef τ sig) = V (main_arg9 : DevRef τ sig) := by
  after_results_simp

set_option maxRecDepth 8192 in
set_option maxHeartbeats 4000000 in
theorem arg10_eq (V : Valuation τ sig (Elt Ideal)) :
    after (ops (F := Ideal)) V (main_arg10 : DevRef τ sig) = V (main_arg10 : DevRef τ sig) := by
  after_results_simp

set_option maxRecDepth 8192 in
set_option maxHeartbeats 4000000 in
theorem arg11_eq (V : Valuation τ sig (Elt Ideal)) :
    after (ops (F := Ideal)) V (main_arg11 : DevRef τ sig) = V (main_arg11 : DevRef τ sig) := by
  after_results_simp

/-- The run read back at `Ideal`: the result buffer at `out` of the launch contents of the arguments, the arguments
    as launched. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83) = Cert.Arr.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c main_v83).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩) (run_main m ρ)

end Cert.ReferenceIdeal.RefRun

end
-- ==== Proof.lean ====
/-
  The certificate: a two-layer neighbour-mean network on 50000 nodes, computed by a program of two kernel regions
  among host stretches and by a reference of host operations alone, are the same function of the arguments over the
  extended reals.

  Both programs aggregate each node's incoming source rows by a gather and a scatter-add and count its in-degree,
  clamped below by one. The kernel's host side multiplies the aggregate by the reciprocal of the clamped degree, the
  reference divides by the clamped degree: the same extended real, because the clamped degree is never zero. Each layer
  is then a row-wise function: three (then two) products with weight matrices and their biases; in the first layer the
  normalisation of the 256 sums (mean and variance by sums along the row, the same words for 256 and for the shift under
  the inverse square root on both sides), gain, shift and the exponential linear unit, which the kernel writes as
  `e^y - 1` below zero and the reference as `1 · expm1` of the value clipped at zero: one function. The kernel regions
  compute the rows in 25 blocks of 2000 that tile the node axis; the format changes to a narrower float before the
  matrix unit are the identity on extended reals. So both results are Arrays.lean's `out` of the arguments.

  The three frames: the two kernel programs' by their generated frames; the reference's by its run with the result
  dropped. The idealization rewrote no operation, so nothing is owed for it.
-/
import proofs.«130005_j2680059593393_1_alg».proof.Defs
import proofs.«130005_j2680059593393_1_alg».proof.Proof.Gen.Kernel
import proofs.«130005_j2680059593393_1_alg».proof.Proof.Gen.Kernel.Skeleton
import proofs.«130005_j2680059593393_1_alg».proof.Proof.Gen.Kernel.Launch
import proofs.«130005_j2680059593393_1_alg».proof.Proof.Gen.Kernel.Points
import proofs.«130005_j2680059593393_1_alg».proof.Proof.Gen.Kernel.Frame
import proofs.«130005_j2680059593393_1_alg».proof.Proof.Gen.KernelIdeal
import proofs.«130005_j2680059593393_1_alg».proof.Proof.Gen.KernelIdeal.Skeleton
import proofs.«130005_j2680059593393_1_alg».proof.Proof.Gen.KernelIdeal.Launch
import proofs.«130005_j2680059593393_1_alg».proof.Proof.Gen.KernelIdeal.Points
import proofs.«130005_j2680059593393_1_alg».proof.Proof.Gen.KernelIdeal.Frame
import proofs.«130005_j2680059593393_1_alg».proof.Proof.Gen.ReferenceIdeal
import proofs.«130005_j2680059593393_1_alg».proof.Proof.Gen.Pre_finite_inputs
import proofs.«130005_j2680059593393_1_alg».proof.Proof.KRun
import proofs.«130005_j2680059593393_1_alg».proof.Proof.KHost
import proofs.«130005_j2680059593393_1_alg».proof.Proof.RRun
import Idealize.ShloMosaic.Adequacy
import Idealize.ShloMosaic.Init

noncomputable section

namespace Cert.Proof

open Idealize.ShloMosaic Idealize.SL.Sem

/-- The word-level kernel program terminates without a fault and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.RefRun.run_out m ρ)

/-- The idealization rewrote no operation. -/
theorem preserves : Cert.preserves_Kernel_KernelIdeal := trivial

/-- From memories that agree on the arguments both programs end with the result array at `out` of the arguments. -/
theorem algebraic : Cert.algebraic_KernelIdeal_ReferenceIdeal := by
  intro m ρ m' ρ' _ hagree
  refine ⟨fun c => Cert.Arr.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.KernelIdeal.KVal.value m ρ c), (h c).2⟩)
      (Cert.KernelIdeal.Gen.run_value m ρ)
  · refine (θ_run Cert.ReferenceIdeal.defs _ _).mono (fun r h c => ⟨(h c).1.trans ?_, (h c).2⟩) (Cert.ReferenceIdeal.RefRun.run_out m' ρ')
    obtain ⟨h0, h1, h2, h3, h4, h5, h6, h7, h8, h9, h10, h11⟩ := hagree c
    rw [h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
